-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part2 {F : FTy → Type} [FloatOps F] (main_v30 : IVec S_ 1) (main_v32 : FVec F S100000x32 .f32) (main_cst_12 : FVec F S_ .f32) : IVec S_ 1 :=
  let main_v33 : FVec F S100000x32 .f32 := broadcastInDim S100000x32 ![] bcast_S_S100000x32 main_cst_12
  let main_v34 : IVec S100000x32 1 := cmpf .une main_v32 main_v33
  let main_c_13 : IVec S_ 1 := constantI S_ 1 1#1
  let main_v35 : IVec S_ 1 := (fun x v => Host.reduce IntOp.andi x v reducesTo_S100000x32_S_d0_1 h_S_) main_v34 main_c_13
  let main_v36 : IVec S_ 1 := andi main_v30 main_v35
  main_v36

def fn_part1 {F : FTy → Type} [FloatOps F] (main_arg0 : FVec F S100000x32 .f32) (main_arg1 : IVec S2x1000000 32) (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S2x1000000 32 := broadcastInDim S2x1000000 ![] bcast_S_S2x1000000 main_c_8
  let main_v25 : IVec S2x1000000 1 := cmpi .sge main_arg1 main_v24
  let main_c_9 : IVec S_ 32 := constantI S_ 32 100000#32
  let main_v26 : IVec S2x1000000 32 := broadcastInDim S2x1000000 ![] bcast_S_S2x1000000 main_c_9
  let main_v27 : IVec S2x1000000 1 := cmpi .slt main_arg1 main_v26
  let main_v28 : IVec S2x1000000 1 := andi main_v25 main_v27
  let main_c_10 : IVec S_ 1 := constantI S_ 1 1#1
  let main_v29 : IVec S_ 1 := (fun x v => Host.reduce IntOp.andi x v reducesTo_S2x1000000_S_d0_1 h_S_) main_v28 main_c_10
  let main_v30 : IVec S_ 1 := andi main_v23 main_v29
  let main_cst_11 : FVec F S_ .f32 := constant S_ .f32 0x322BCC77#32
  let main_v31 : FVec F S100000x32 .f32 := broadcastInDim S100000x32 ![] bcast_S_S100000x32 main_cst_11
  let main_v32 : FVec F S100000x32 .f32 := addf main_arg0 main_v31
  let main_cst_12 : FVec F S_ .f32 := constant S_ .f32 0x00000000#32
  fn_part2 (F := F) main_v30 main_v32 main_cst_12

def fn {F : FTy → Type} [FloatOps F] (main_arg0 : FVec F S100000x32 .f32) (main_arg1 : IVec S2x1000000 32) (main_arg2 : FVec F S64x128 .f32) (main_arg3 : FVec F S64 .f32) (main_arg4 : FVec F S1x64 .f32) (main_arg5 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg0 main_arg1 main_arg5 main_v13 main_v16
-- ==== Kernel.lean ====
abbrev S100000x32 : Shape := ⟨2, ![100000, 32]⟩
abbrev S2x1000000 : Shape := ⟨2, ![2, 1000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S100000x128 : Shape := ⟨2, ![100000, 128]⟩
abbrev S1003520 : Shape := ⟨1, ![1003520]⟩
abbrev S1003520x1 : Shape := ⟨2, ![1003520, 1]⟩
abbrev S1x1 : Shape := ⟨2, ![1, 1]⟩
abbrev S1003520x128 : Shape := ⟨2, ![1003520, 128]⟩
abbrev S128x64 : Shape := ⟨2, ![128, 64]⟩
abbrev S4096x128 : Shape := ⟨2, ![4096, 128]⟩
abbrev S4096x1 : Shape := ⟨2, ![4096, 1]⟩
abbrev S4096x64 : Shape := ⟨2, ![4096, 64]⟩
abbrev S4096 : Shape := ⟨1, ![4096]⟩
abbrev S1000000x1 : Shape := ⟨2, ![1000000, 1]⟩

abbrev nBuf : Space → Nat
  | .hbm => 80
  | .vmem => 10
  | .smem => 0
  | _ => 0

abbrev bufTy : (tb : Table) → Fin (tcTables nBuf tb) → BufTy
  | .hbm, ⟨0, _⟩ => ⟨S100000x32, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S100000x32, .f32⟩
  | .hbm, ⟨12, _⟩ => ⟨S100000x32, .f32⟩
  | .hbm, ⟨13, _⟩ => ⟨S100000x32, .f32⟩
  | .hbm, ⟨14, _⟩ => ⟨S_, .f32⟩
  | .hbm, ⟨15, _⟩ => ⟨S100000x32, .f32⟩
  | .hbm, ⟨16, _⟩ => ⟨S100000x32, .f32⟩
  | .hbm, ⟨17, _⟩ => ⟨S_, .f32⟩
  | .hbm, ⟨18, _⟩ => ⟨S100000x32, .f32⟩
  | .hbm, ⟨19, _⟩ => ⟨S100000x32, .f32⟩
  | .hbm, ⟨20, _⟩ => ⟨S100000x128, .f32⟩
  | .hbm, ⟨21, _⟩ => ⟨S100000x128, .f32⟩
  | .hbm, ⟨22, _⟩ => ⟨S_, .i32⟩
  | .hbm, ⟨23, _⟩ => ⟨S_, .i32⟩
  | .hbm, ⟨24, _⟩ => ⟨S1003520, .i32⟩
  | .hbm, ⟨25, _⟩ => ⟨S_, .i32⟩
  | .hbm, ⟨26, _⟩ => ⟨S_, .i32⟩
  | .hbm, ⟨27, _⟩ => ⟨S1003520, .i32⟩
  | .hbm, ⟨28, _⟩ => ⟨S_, .i32⟩
  | .hbm, ⟨29, _⟩ => ⟨S1003520, .i32⟩
  | .hbm, ⟨30, _⟩ => ⟨S1003520, .i1⟩
  | .hbm, ⟨31, _⟩ => ⟨S_, .i32⟩
  | .hbm, ⟨32, _⟩ => ⟨S1003520, .i32⟩
  | .hbm, ⟨33, _⟩ => ⟨S1003520, .i32⟩
  | .hbm, ⟨34, _⟩ => ⟨S1003520, .i32⟩
  | .hbm, ⟨35, _⟩ => ⟨S1003520x1, .i32⟩
  | .hbm, ⟨36, _⟩ => ⟨S1, .i32⟩
  | .hbm, ⟨37, _⟩ => ⟨S_, .i32⟩
  | .hbm, ⟨38, _⟩ => ⟨S1003520x1, .i32⟩
  | .hbm, ⟨39, _⟩ => ⟨S1003520x1, .i1⟩
  | .hbm, ⟨40, _⟩ => ⟨S1x1, .i32⟩
  | .hbm, ⟨41, _⟩ => ⟨S1003520x1, .i32⟩
  | .hbm, ⟨42, _⟩ => ⟨S1003520x1, .i1⟩
  | .hbm, ⟨43, _⟩ => ⟨S1003520x1, .i1⟩
  | .hbm, ⟨44, _⟩ => ⟨S_, .i1⟩
  | .hbm, ⟨45, _⟩ => ⟨S1003520, .i1⟩
  | .hbm, ⟨46, _⟩ => ⟨S1003520x128, .f32⟩
  | .hbm, ⟨47, _⟩ => ⟨S1003520x128, .i1⟩
  | .hbm, ⟨48, _⟩ => ⟨S_, .f32⟩
  | .hbm, ⟨49, _⟩ => ⟨S1003520x128, .f32⟩
  | .hbm, ⟨50, _⟩ => ⟨S1003520x128, .f32⟩
  | .hbm, ⟨51, _⟩ => ⟨S_, .i32⟩
  | .hbm, ⟨52, _⟩ => ⟨S1003520, .i32⟩
  | .hbm, ⟨53, _⟩ => ⟨S1003520, .i1⟩
  | .hbm, ⟨54, _⟩ => ⟨S_, .i32⟩
  | .hbm, ⟨55, _⟩ => ⟨S1003520, .i32⟩
  | .hbm, ⟨56, _⟩ => ⟨S1003520, .i32⟩
  | .hbm, ⟨57, _⟩ => ⟨S1003520, .i32⟩
  | .hbm, ⟨58, _⟩ => ⟨S1003520x1, .i32⟩
  | .hbm, ⟨59, _⟩ => ⟨S1, .i32⟩
  | .hbm, ⟨60, _⟩ => ⟨S_, .i32⟩
  | .hbm, ⟨61, _⟩ => ⟨S1003520x1, .i32⟩
  | .hbm, ⟨62, _⟩ => ⟨S1003520x1, .i1⟩
  | .hbm, ⟨63, _⟩ => ⟨S1x1, .i32⟩
  | .hbm, ⟨64, _⟩ => ⟨S1003520x1, .i32⟩
  | .hbm, ⟨65, _⟩ => ⟨S1003520x1, .i1⟩
  | .hbm, ⟨66, _⟩ => ⟨S1003520x1, .i1⟩
  | .hbm, ⟨67, _⟩ => ⟨S_, .i1⟩
  | .hbm, ⟨68, _⟩ => ⟨S1003520, .i1⟩
  | .hbm, ⟨69, _⟩ => ⟨S1003520x128, .f32⟩
  | .hbm, ⟨70, _⟩ => ⟨S1003520x128, .i1⟩
  | .hbm, ⟨71, _⟩ => ⟨S_, .f32⟩
  | .hbm, ⟨72, _⟩ => ⟨S1003520x128, .f32⟩
  | .hbm, ⟨73, _⟩ => ⟨S1003520x128, .f32⟩
  | .hbm, ⟨74, _⟩ => ⟨S128x64, .f32⟩
  | .hbm, ⟨75, _⟩ => ⟨S1x64, .f32⟩
  | .hbm, ⟨76, _⟩ => ⟨S1x1, .f32⟩
  | .hbm, ⟨77, _⟩ => ⟨S1003520x1, .f32⟩
  | .hbm, ⟨78, _⟩ => ⟨S1000000x1, .f32⟩
  | .hbm, ⟨79, _⟩ => ⟨S1000000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x64, .f32⟩
  | .local _ .vmem, ⟨5, _⟩ => ⟨S1x64, .f32⟩
  | .local _ .vmem, ⟨6, _⟩ => ⟨S1x64, .f32⟩
  | .local _ .vmem, ⟨7, _⟩ => ⟨S1x1, .f32⟩
  | .local _ .vmem, ⟨8, _⟩ => ⟨S4096x1, .f32⟩
  | .local _ .vmem, ⟨9, _⟩ => ⟨S4096x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_c_2 : Ref sig .tc := ⟨.hbm, 25, rfl⟩
abbrev main_call1_v0 : Ref sig .tc := ⟨.hbm, 26, rfl⟩
abbrev main_v14 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v15 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_call3_cst : Ref sig .tc := ⟨.hbm, 71, rfl⟩
abbrev main_call3_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S100000x32 : S_.BroadcastsInDim S100000x32 (![] : Fin 0 → Fin S100000x32.rank)
  concatenates_S100000x32_S100000x32_S100000x32_S100000x32_S100000x128_d1 : Shape.Concatenates [S100000x32, S100000x32, S100000x32, S100000x32] S100000x128 1
  pads_S1000000_S1003520_035200 : S1000000.Pads (![0] : Fin 1 → Nat) ![3520] ![0] S1003520
  h_S_ : 0 < S_.numel
  bcast_S_S1003520 : S_.BroadcastsInDim S1003520 (![] : Fin 0 → Fin S1003520.rank)
  bcast_S1003520_S1003520x1_0 : S1003520.BroadcastsInDim S1003520x1 (![0] : Fin 1 → Fin S1003520x1.rank)
  bcast_S_S1003520x1 : S_.BroadcastsInDim S1003520x1 (![] : Fin 0 → Fin S1003520x1.rank)
  bcast_S1_S1x1_1 : S1.BroadcastsInDim S1x1 (![1] : Fin 1 → Fin S1x1.rank)
  bcast_S1x1_S1003520x1_0_1 : S1x1.BroadcastsInDim S1003520x1 (![0, 1] : Fin 2 → Fin S1003520x1.rank)
  reducesTo_S1003520x1_S1003520_d1 : S1003520x1.ReducesTo [1] S1003520
  bcast_S1003520_S1003520x128_0 : S1003520.BroadcastsInDim S1003520x128 (![0] : Fin 1 → Fin S1003520x128.rank)
  bcast_S_S1003520x128 : S_.BroadcastsInDim S1003520x128 (![] : Fin 0 → Fin S1003520x128.rank)
  transposes_S64x128_S128x64_1_0 : S64x128.Transposes [1, 0] S128x64
  shapeCasts_S64_S1x64 : S64.ShapeCasts S1x64
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S4096x128_d1_w32 : S4096x128.Iotas .tc 32 [1]
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  slices_S1003520x1_S1000000x1_0_0 : S1003520x1.Slices ![0, 0] S1000000x1
  shapeCasts_S1000000x1_S1000000 : S1000000x1.ShapeCasts S1000000
  gather_S100000x128_S1003520x1_S1003520x128_1_0_n_n_0_1_1128_wf : GatherDims.WF S100000x128 S1003520x1 S1003520x128 [1] [0] [] [0] [] 1 ![1, 128]
  dot_S4096x128_S128x64_S4096x64_1_0_0_1_n_n_wf : DotDims.WF S4096x128 S128x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .f32 = 32 ∨ (Rect.block (s := S1003520x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1003520x128.size a
  hwx0_1 : ∀ i : grid0.Coords, EltTy.bits .f32 = 32 ∨ (Rect.block (s := S1003520x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S1003520x1.size a
  hwx0_6 : ∀ i : grid0.Coords, EltTy.bits .f32 = 32 ∨ (Rect.block (s := S1003520x1) S4096x1.size (cc0_transform_6 i) (hinb0_6 i)).WholeWords (EltTy.packing .f32)

variable [Facts₀]

def gather_S100000x128_S1003520x1_S1003520x128_1_0_n_n_0_1_1128 : GatherDims S100000x128 S1003520x1 S1003520x128 where
  offsetDims := [1]
  collapsedSliceDims := [0]
  operandBatchingDims := []
  startIndicesBatchingDims := []
  startIndexMap := [0]
  indexVectorDim := 1
  sliceSizes := ![1, 128]
  wf := gather_S100000x128_S1003520x1_S1003520x128_1_0_n_n_0_1_1128_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

abbrev win0_0 : Pipeline.Window sig grid0 :=
  Pipeline.Window.ofSpec (Memref.whole main_v15) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4096x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x32 : Shape := ⟨2, ![1000000, 32]⟩
abbrev S1000000x128 : Shape := ⟨2, ![1000000, 128]⟩
abbrev S128x64 : Shape := ⟨2, ![128, 64]⟩
abbrev S1000000x64 : Shape := ⟨2, ![1000000, 64]⟩
abbrev S64x1 : Shape := ⟨2, ![64, 1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x32, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x32, .f32⟩
  | .hbm, ⟨28, _⟩ => ⟨S_, .f32⟩
  | .hbm, ⟨29, _⟩ => ⟨S1000000x32, .f32⟩
  | .hbm, ⟨30, _⟩ => ⟨S1000000x32, .f32⟩
  | .hbm, ⟨31, _⟩ => ⟨S1000000x32, .f32⟩
  | .hbm, ⟨32, _⟩ => ⟨S_, .f32⟩
  | .hbm, ⟨33, _⟩ => ⟨S1000000x32, .f32⟩
  | .hbm, ⟨34, _⟩ => ⟨S1000000x32, .f32⟩
  | .hbm, ⟨35, _⟩ => ⟨S1000000x32, .f32⟩
  | .hbm, ⟨36, _⟩ => ⟨S_, .f32⟩
  | .hbm, ⟨37, _⟩ => ⟨S1000000x32, .f32⟩
  | .hbm, ⟨38, _⟩ => ⟨S1000000x32, .f32⟩
  | .hbm, ⟨39, _⟩ => ⟨S1000000x32, .f32⟩
  | .hbm, ⟨40, _⟩ => ⟨S1000000x32, .f32⟩
  | .hbm, ⟨41, _⟩ => ⟨S1000000x32, .f32⟩
  | .hbm, ⟨42, _⟩ => ⟨S1000000x32, .f32⟩
  | .hbm, ⟨43, _⟩ => ⟨S1000000x32, .f32⟩
  | .hbm, ⟨44, _⟩ => ⟨S_, .f32⟩
  | .hbm, ⟨45, _⟩ => ⟨S1000000x32, .f32⟩
  | .hbm, ⟨46, _⟩ => ⟨S1000000x32, .f32⟩
  | .hbm, ⟨47, _⟩ => ⟨S1000000x32, .f32⟩
  | .hbm, ⟨48, _⟩ => ⟨S1000000x128, .f32⟩
  | .hbm, ⟨49, _⟩ => ⟨S128x64, .f32⟩
  | .hbm, ⟨50, _⟩ => ⟨S1000000x64, .f32⟩
  | .hbm, ⟨51, _⟩ => ⟨S1x64, .f32⟩
  | .hbm, ⟨52, _⟩ => ⟨S1000000x64, .f32⟩
  | .hbm, ⟨53, _⟩ => ⟨S1000000x64, .f32⟩
  | .hbm, ⟨54, _⟩ => ⟨S_, .f32⟩
  | .hbm, ⟨55, _⟩ => ⟨S1000000x64, .f32⟩
  | .hbm, ⟨56, _⟩ => ⟨S1000000x64, .f32⟩
  | .hbm, ⟨57, _⟩ => ⟨S64x1, .f32⟩
  | .hbm, ⟨58, _⟩ => ⟨S1000000x1, .f32⟩
  | .hbm, ⟨59, _⟩ => ⟨S1x1, .f32⟩
  | .hbm, ⟨60, _⟩ => ⟨S1000000x1, .f32⟩
  | .hbm, ⟨61, _⟩ => ⟨S1000000x1, .f32⟩
  | .hbm, ⟨62, _⟩ => ⟨S1000000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_cst : Ref sig .tc := ⟨.hbm, 54, rfl⟩
abbrev main_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x32 : S_.BroadcastsInDim S1000000x32 (![] : Fin 0 → Fin S1000000x32.rank)
  concatenates_S1000000x32_S1000000x32_S1000000x32_S1000000x32_S1000000x128_d1 : Shape.Concatenates [S1000000x32, S1000000x32, S1000000x32, S1000000x32] S1000000x128 1
  transposes_S64x128_S128x64_1_0 : S64x128.Transposes [1, 0] S128x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x32_S1000000x1_S1000000x32_1_0_n_n_0_1_132_wf : GatherDims.WF S100000x32 S1000000x1 S1000000x32 [1] [0] [] [0] [] 1 ![1, 32]
  dot_S1000000x128_S128x64_S1000000x64_1_0_0_1_n_n_wf : DotDims.WF S1000000x128 S128x64 S1000000x64 [1] [0] [0] [1] [] []
  dot_S1000000x64_S64x1_S1000000x1_1_0_0_1_n_n_wf : DotDims.WF S1000000x64 S64x1 S1000000x1 [1] [0] [0] [1] [] []

variable [Facts₀]

def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.KernelLaunched.lean ====
/-
  The launch of the one pallas_call of this program, at any reading of the floats.

  Before the launch the host lines compute, from the node features and the edge list, the two gathered tables, the
  transposed first weight matrix and the two reshaped biases; after it they cut the padded rows off the result and flatten
  it. This module follows the program from its start to its end: what every buffer holds when the launch is reached
  (the host lines' operations applied in order to the starting memory), that no host line writes one of the six argument
  arrays, what one grid point's body leaves in the output window's buffer as a function of the six input blocks it was
  handed (its one store covers the whole buffer), and from these that every weakly fair execution terminates without a
  fault, with the output array holding, block by block, what the points wrote, every other buffer what the host lines
  after the launch leave there, and the six arguments unchanged.
-/
import proofs.«425139_j24481313587800_3_alg».proof.Proof.Gen.Kernel.Launch
import proofs.«425139_j24481313587800_3_alg».proof.Proof.Gen.Kernel.Skeleton
import proofs.«425139_j24481313587800_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- What core `c`'s buffers hold when the launch is reached: the host lines before it, applied in order to the
    starting memory. -/
abbrev V0 (c : Dev nD) : Valuation τ sig (Elt F) := StableHlo.after (List.flatten [hostOps0, hostOps0_1, hostOps0_2, hostOps0_3, hostOps0_4, hostOps0_5, hostOps0_6]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the host lines after it. Run up to the launch it has
    made the buffers `V`, and what is left to run is the launch continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the launch touch only buffers outside the cores' scoped memory. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the seven arrays the windows stage. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 1: the launch finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 2: the launch finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 3: the launch finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 4: the launch finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 5: the launch finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes argument 0, and no window stages it: it ends as it started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the launch writes argument 1, and no window stages it: it ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the launch writes argument 2, and no window stages it: it ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the launch writes argument 3, and no window stages it: it ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the launch writes argument 5, and no window stages it: it ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetches it or the block index
    has not moved since it was fetched, as long as the array is the launch's and the body leaves the block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with the staged arrays at what the points wrote back and every other buffer at what the later
    host lines leave: the six arguments end as they started. Five of them no window stages and no later line writes;
    the second layer's weight row is the array of an input window, which nothing writes back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 4).trans (((dats 0 c).arrAt_in 4 rfl _).trans ((hA c 4).trans (V_main_arg4 m c))),
      ((h c).2 main_arg5 (Pipeline.mem_restRefs_of main_arg5 (by decide) (by decide))).trans (W_main_arg5 m dats c)⟩) h

/-! ## One grid point's body -/

abbrev rTab : Rect S4096x128 := Rect.unit (s := S4096x128) ![0, 0] S4096x128.size inb_S4096x128_S4096x128_0_0
abbrev rW1 : Rect S128x64 := Rect.unit (s := S128x64) ![0, 0] S128x64.size inb_S128x64_S128x64_0_0
abbrev rRow : Rect S1x64 := Rect.unit (s := S1x64) ![0, 0] S1x64.size inb_S1x64_S1x64_0_0
abbrev rOne : Rect S1x1 := Rect.unit (s := S1x1) ![0, 0] S1x1.size inb_S1x1_S1x1_0_0
abbrev rOut : Rect S4096x1 := Rect.unit (s := S4096x1) ![0, 0] S4096x1.size inb_S4096x1_S4096x1_0_0

/-- What the body leaves in the output window's buffer, from the six input blocks: its one store, of the body's
    arithmetic on the blocks read whole. -/
def outBlk (x0 x1 : Vec F S4096x128 .f32) (x2 : Vec F S128x64 .f32) (x3 x4 : Vec F S1x64 .f32) (x5 : Vec F S1x1 .f32) : Vec F S4096x1 .f32 :=
  View.canon [⟨rOut, k0_pay1 (View.ld x0 rTab) (View.ld x1 rTab) (View.ld x2 rW1) (View.ld x3 rRow) (View.ld x4 rRow) (View.ld x5 rOne)⟩]

/-- The one store covers the buffer. -/
theorem outCover (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

set_option maxHeartbeats 1000000 in
/-- The body on whole buffers, the six inputs' at contents `x0 … x5` and the output's at anything, runs to the end with
    the inputs' buffers as they were and the output's at `outBlk` of them. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x1 .f32) (harg6 : arg6.IsWhole)
    (arg7 : Memref sig .tc .vmem S4096x1 .f32) (harg7 : arg7.IsWhole)
    (x0 x1 : Vec F S4096x128 .f32) (x2 : Vec F S128x64 .f32) (x3 x4 : Vec F S1x64 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The proof data of the pipeline -/

/-- On core `c`: the arrays as the launch finds them; after the body at point `t` each input's buffer still at its
    block and the output's at `outBlk` of the six blocks; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the input buffers hold their blocks, so the body's triple applies; what is kept between points passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any starting memory with every counter at zero, every weakly fair execution of the program terminates without a
    fault; at its end each staged array holds what the points wrote back into it, and every other buffer outside the
    cores' scoped memory what the host lines after the launch leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Launched

end
-- ==== Proof.KernelIdealLaunched.lean ====
/-
  The launch of the one pallas_call of this program, at any reading of the floats.

  Before the launch the host lines compute, from the node features and the edge list, the two gathered tables, the
  transposed first weight matrix and the two reshaped biases; after it they cut the padded rows off the result and flatten
  it. This module follows the program from its start to its end: what every buffer holds when the launch is reached
  (the host lines' operations applied in order to the starting memory), that no host line writes one of the six argument
  arrays, what one grid point's body leaves in the output window's buffer as a function of the six input blocks it was
  handed (its one store covers the whole buffer), and from these that every weakly fair execution terminates without a
  fault, with the output array holding, block by block, what the points wrote, every other buffer what the host lines
  after the launch leave there, and the six arguments unchanged.
-/
import proofs.«425139_j24481313587800_3_alg».proof.Proof.Gen.KernelIdeal.Launch
import proofs.«425139_j24481313587800_3_alg».proof.Proof.Gen.KernelIdeal.Skeleton
import proofs.«425139_j24481313587800_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- What core `c`'s buffers hold when the launch is reached: the host lines before it, applied in order to the
    starting memory. -/
abbrev V0 (c : Dev nD) : Valuation τ sig (Elt F) := StableHlo.after (List.flatten [hostOps0, hostOps0_1, hostOps0_2, hostOps0_3, hostOps0_4, hostOps0_5, hostOps0_6]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the host lines after it. Run up to the launch it has
    made the buffers `V`, and what is left to run is the launch continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the launch touch only buffers outside the cores' scoped memory. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the seven arrays the windows stage. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 1: the launch finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 2: the launch finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 3: the launch finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 4: the launch finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line before the launch writes argument 5: the launch finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the launch writes argument 0, and no window stages it: it ends as it started. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line after the launch writes argument 1, and no window stages it: it ends as it started. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the launch writes argument 2, and no window stages it: it ends as it started. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the launch writes argument 3, and no window stages it: it ends as it started. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the launch writes argument 5, and no window stages it: it ends as it started. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, cut out of its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetches it or the block index
    has not moved since it was fetched, as long as the array is the launch's and the body leaves the block in place. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run that ends with the staged arrays at what the points wrote back and every other buffer at what the later
    host lines leave: the six arguments end as they started. Five of them no window stages and no later line writes;
    the second layer's weight row is the array of an input window, which nothing writes back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 4).trans (((dats 0 c).arrAt_in 4 rfl _).trans ((hA c 4).trans (V_main_arg4 m c))),
      ((h c).2 main_arg5 (Pipeline.mem_restRefs_of main_arg5 (by decide) (by decide))).trans (W_main_arg5 m dats c)⟩) h

/-! ## One grid point's body -/

abbrev rTab : Rect S4096x128 := Rect.unit (s := S4096x128) ![0, 0] S4096x128.size inb_S4096x128_S4096x128_0_0
abbrev rW1 : Rect S128x64 := Rect.unit (s := S128x64) ![0, 0] S128x64.size inb_S128x64_S128x64_0_0
abbrev rRow : Rect S1x64 := Rect.unit (s := S1x64) ![0, 0] S1x64.size inb_S1x64_S1x64_0_0
abbrev rOne : Rect S1x1 := Rect.unit (s := S1x1) ![0, 0] S1x1.size inb_S1x1_S1x1_0_0
abbrev rOut : Rect S4096x1 := Rect.unit (s := S4096x1) ![0, 0] S4096x1.size inb_S4096x1_S4096x1_0_0

/-- What the body leaves in the output window's buffer, from the six input blocks: its one store, of the body's
    arithmetic on the blocks read whole. -/
def outBlk (x0 x1 : Vec F S4096x128 .f32) (x2 : Vec F S128x64 .f32) (x3 x4 : Vec F S1x64 .f32) (x5 : Vec F S1x1 .f32) : Vec F S4096x1 .f32 :=
  View.canon [⟨rOut, k0_pay1 (View.ld x0 rTab) (View.ld x1 rTab) (View.ld x2 rW1) (View.ld x3 rRow) (View.ld x4 rRow) (View.ld x5 rOne)⟩]

/-- The one store covers the buffer. -/
theorem outCover (p0 : Vec F S4096x1 .f32) (y : S4096x1.Idx) :
    ∃ pc ∈ ([⟨rOut, p0⟩] : List (View.Piece (Elt F) S4096x1 .f32)), y ∈ pc.1.set :=
  View.cover_of_tiled [⟨rOut, p0⟩] S4096x1.size (by rfl) y

set_option maxHeartbeats 1000000 in
/-- The body on whole buffers, the six inputs' at contents `x0 … x5` and the output's at anything, runs to the end with
    the inputs' buffers as they were and the output's at `outBlk` of them. -/
theorem sound_kernel (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x1 .f32) (harg6 : arg6.IsWhole)
    (arg7 : Memref sig .tc .vmem S4096x1 .f32) (harg7 : arg7.IsWhole)
    (x0 x1 : Vec F S4096x128 .f32) (x2 : Vec F S128x64 .f32) (x3 x4 : Vec F S1x64 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outCover _)

/-! ## The proof data of the pipeline -/

/-- On core `c`: the arrays as the launch finds them; after the body at point `t` each input's buffer still at its
    block and the output's at `outBlk` of the six blocks; nothing else kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the input buffers hold their blocks, so the body's triple applies; what is kept between points passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any starting memory with every counter at zero, every weakly fair execution of the program terminates without a
    fault; at its end each staged array holds what the points wrote back into it, and every other buffer outside the
    cores' scoped memory what the host lines after the launch leave there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Launched

end
-- ==== Proof.Blocks.lean ====
/-
  Where the windows' blocks lie in their arrays.

  The grid has 245 points along the padded edge axis. At point t the two table windows hold rows 4096 t … 4096 t + 4095
  (all 128 columns) of their arrays and the output window the same rows of the result column; the four small windows
  hold their whole arrays at every point. So reading row r of a table block is reading row 4096 t + r of the table,
  and every row R of the result column lies in the block of point R / 4096.
-/
import proofs.«425139_j24481313587800_3_alg».proof.Proof.KernelIdealLaunched
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Launched
open Idealize.ShloMosaic Idealize.ShloMosaic.TcCoe Idealize.ShloMosaic.ValueIdx
open Idealize.SL Idealize.SL.Sem

/-- The block index maps over the grid: the table windows and the output window move with the point along the rows; the
    four small windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 245 := N_0 ▸ t.isLt

/-- The row of an array that row r of the block at point t is. -/
abbrev rowAt (t : Fin cfg0.N) (r : Fin 4096) : Fin 1003520 := ⟨t.val * 4096 + r.val, by have := t_lt t; omega⟩

variable {α : Type}

/-- Row r of the first table window's block at point t is row 4096 t + r of its array. -/
theorem read0 (A : S1003520x128.Idx → α) (t : Fin cfg0.N) (r : Fin 4096) (k : Fin 128) :
    A (((cfg0.win 0).blk t).view.emb (ix2 r k)) = A (ix2 (rowAt t r) k) := by
  refine congrArg A (funext fun a => Fin.ext ?_)
  obtain ⟨e0, e1, -⟩ := idx_facts t
  match a with
  | ⟨0, _⟩ => show win0_0.index t (0 : Fin 2) * 4096 + 1 * r.val = t.val * 4096 + r.val; omega
  | ⟨1, _⟩ => show win0_0.index t (1 : Fin 2) * 128 + 1 * k.val = k.val; omega

/-- The same for the second table window. -/
theorem read1 (A : S1003520x128.Idx → α) (t : Fin cfg0.N) (r : Fin 4096) (k : Fin 128) :
    A (((cfg0.win 1).blk t).view.emb (ix2 r k)) = A (ix2 (rowAt t r) k) := by
  refine congrArg A (funext fun a => Fin.ext ?_)
  obtain ⟨-, -, e0, e1, -⟩ := idx_facts t
  match a with
  | ⟨0, _⟩ => show win0_1.index t (0 : Fin 2) * 4096 + 1 * r.val = t.val * 4096 + r.val; omega
  | ⟨1, _⟩ => show win0_1.index t (1 : Fin 2) * 128 + 1 * k.val = k.val; omega

/-- The weight window's block is its whole array. -/
theorem read2 (A : S128x64.Idx → α) (t : Fin cfg0.N) (k : Fin 128) (n : Fin 64) :
    A (((cfg0.win 2).blk t).view.emb (ix2 k n)) = A (ix2 k n) := by
  refine congrArg A (funext fun a => Fin.ext ?_)
  obtain ⟨-, -, -, -, e0, e1, -⟩ := idx_facts t
  match a with
  | ⟨0, _⟩ => show win0_2.index t (0 : Fin 2) * 128 + 1 * k.val = k.val; omega
  | ⟨1, _⟩ => show win0_2.index t (1 : Fin 2) * 64 + 1 * n.val = n.val; omega

theorem read3 (A : S1x64.Idx → α) (t : Fin cfg0.N) (n : Fin 64) :
    A (((cfg0.win 3).blk t).view.emb (ix2 (0 : Fin 1) n)) = A (ix2 (0 : Fin 1) n) := by
  refine congrArg A (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 64 + 1 * n.val = n.val; omega

theorem read4 (A : S1x64.Idx → α) (t : Fin cfg0.N) (n : Fin 64) :
    A (((cfg0.win 4).blk t).view.emb (ix2 (0 : Fin 1) n)) = A (ix2 (0 : Fin 1) n) := by
  refine congrArg A (funext fun a => Fin.ext ?_)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 64 + 1 * n.val = n.val; omega

theorem read5 (A : S1x1.Idx → α) (t : Fin cfg0.N) :
    A (((cfg0.win 5).blk t).view.emb (ix2 (0 : Fin 1) (0 : Fin 1))) = A (ix2 (0 : Fin 1) (0 : Fin 1)) := by
  refine congrArg A (funext fun a => Fin.ext ?_)
  obtain ⟨-, -, -, -, -, -, -, -, -, -, e0, e1, -⟩ := idx_facts t
  match a with
  | ⟨0, _⟩ => show win0_5.index t (0 : Fin 2) * 1 + 1 * 0 = 0; omega
  | ⟨1, _⟩ => show win0_5.index t (1 : Fin 2) * 1 + 1 * 0 = 0; omega

/-- Row r of the output block at point t is row 4096 t + r of the result column. -/
theorem emb6 (t : Fin cfg0.N) (r : Fin 4096) :
    ((cfg0.win 6).blk t).view.emb (ix2 r (0 : Fin 1)) = (ix2 (rowAt t r) (0 : Fin 1) : S1003520x1.Idx) := by
  refine funext fun a => Fin.ext ?_
  obtain ⟨-, -, -, -, -, -, -, -, -, -, -, -, e0, e1⟩ := idx_facts t
  match a with
  | ⟨0, _⟩ => show win0_6.index t (0 : Fin 2) * 4096 + 1 * r.val = t.val * 4096 + r.val; omega
  | ⟨1, _⟩ => show win0_6.index t (1 : Fin 2) * 1 + 1 * 0 = 0; omega

/-- An index of the column is in point t's block iff its row is one of the block's 4096. -/
theorem mem_blk (t : Fin cfg0.N) (i : S1003520x1.Idx) :
    i ∈ ((cfg0.win 6).blk t).view.set ↔ ∀ a : Fin 2, win0_6.index t a * S4096x1.size a ≤ (i a).val ∧ (i a).val < win0_6.index t a * S4096x1.size a + S4096x1.size a := by
  show i ∈ ((View.whole main_v20).slice (win0_6.rect t)).set ↔ _
  rw [View.set_slice_whole, Rect.mem_set_unit]
  exact Iff.rfl

/-- Every row lies in the block of the point `row / 4096`, which writes its block back. -/
theorem cover (i : S1003520x1.Idx) : ∃ t : Fin cfg0.N, (cfg0.win 6).flush t = true ∧ i ∈ ((cfg0.win 6).blk t).view.set := by
  have hi0 : (i 0).val < 1003520 := (i 0).isLt
  have hi1 : (i 1).val < 1 := (i 1).isLt
  have hN : (i 0).val / 4096 < cfg0.N := by rw [show cfg0.N = 245 from N_0]; omega
  refine ⟨⟨(i 0).val / 4096, hN⟩, flush0_6 _, ?_⟩
  rw [mem_blk]
  obtain ⟨-, -, -, -, -, -, -, -, -, -, -, -, e0, e1⟩ := idx_facts ⟨(i 0).val / 4096, hN⟩
  intro a
  match a with
  | ⟨0, _⟩ =>
    show win0_6.index ⟨(i 0).val / 4096, hN⟩ (0 : Fin 2) * 4096 ≤ (i 0).val ∧ (i 0).val < win0_6.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_6.index ⟨(i 0).val / 4096, hN⟩ (1 : Fin 2) * 1 ≤ (i 1).val ∧ (i 1).val < win0_6.index ⟨(i 0).val / 4096, hN⟩ (1 : Fin 2) * 1 + 1
    rw [e1]; omega

end Cert.KernelIdeal.Blocks

end
-- ==== Proof.Spec.lean ====
/-
  The edge score both programs compute, as one function on the extended reals.

  A node carries 32 features. For an edge from node i to node j the 128 relation features are, column c of the four
  quarters:  x_i c / (x_j c + eps),  log (x_i c + eps) - log (x_j c + eps),  |x_i c - x_j c|,  and
  |x_i c - x_j c| / (max (x_i c) (x_j c) + eps).  The score is a two-layer perceptron of them: 64 hidden units
  max (sum_k f k * W1 n k + b1 n) 0, then sum_n h n * W2 n + b2.

  One program gathers x_i and x_j and computes the four quarters as written. The other first builds two tables of width
  128 per NODE — P n = [x_n, log (x_n + eps), x_n, x_n] and Q n = [1 / (x_n + eps), log (x_n + eps), x_n, x_n] — gathers
  their rows, and combines column k of the two rows by the quarter k lies in: the product, the difference, the absolute
  difference, the absolute difference over the maximum plus eps. The four quarters agree term by term except the first,
  where x_i c * (1 / (x_j c + eps)) stands for x_i c / (x_j c + eps): equal whenever x_j c + eps is not zero (also at an
  infinite divisor, whose inverse is zero on both sides); at a zero divisor they differ (0 * top = 0 against 0 / 0).
-/
import Idealize.ShloMosaic.PureOps.Ideal

noncomputable section

namespace Cert.EdgeSpec

open Idealize.ShloMosaic

/-- The small constant added under the logarithms and to the divisors: the value of its single-precision word. -/
abbrev eps : EReal := Ideal.ofBits .f32 0x322BCC77#32

/-- The feature column a table column reads: its position inside its quarter. -/
abbrev col (k : Fin 128) : Fin 32 := ⟨k.val % 32, Nat.mod_lt _ (by decide)⟩

/-- The absolute value as the float instance has it. -/
abbrev abs' (a : EReal) : EReal := max a (-a)

/-- Row `n` of the first per-node table. -/
def tabP (x : Fin 100000 → Fin 32 → EReal) (n : Fin 100000) (k : Fin 128) : EReal :=
  if k.val < 32 then x n (col k) else if k.val < 64 then Ideal.log (x n (col k) + eps) else x n (col k)

/-- Row `n` of the second per-node table. -/
def tabQ (x : Fin 100000 → Fin 32 → EReal) (n : Fin 100000) (k : Fin 128) : EReal :=
  if k.val < 32 then Ideal.div 1 (x n (col k) + eps) else if k.val < 64 then Ideal.log (x n (col k) + eps) else x n (col k)

/-- The relation features from two gathered table rows, column by column, by quarter. -/
def relK (p q : Fin 128 → EReal) (k : Fin 128) : EReal :=
  if k.val < 32 then p k * q k
  else if k.val < 64 then p k - q k
  else if k.val < 96 then abs' (p k - q k)
  else Ideal.div (abs' (p k - q k)) (max (p k) (q k) + eps)

/-- The relation features from the two nodes' features, as written. -/
def relR (xi xj : Fin 32 → EReal) (k : Fin 128) : EReal :=
  if k.val < 32 then Ideal.div (xi (col k)) (xj (col k) + eps)
  else if k.val < 64 then Ideal.log (xi (col k) + eps) - Ideal.log (xj (col k) + eps)
  else if k.val < 96 then abs' (xi (col k) - xj (col k))
  else Ideal.div (abs' (xi (col k) - xj (col k))) (max (xi (col k)) (xj (col k)) + eps)

/-- The node an index word names, when the word read as a signed integer lies in the table's range. -/
def node (idx : Fin 2 → Fin 1000000 → BitVec 32)
    (h : ∀ s e, 0 ≤ (idx s e).toInt ∧ (idx s e).toInt < 100000) (s : Fin 2) (e : Fin 1000000) : Fin 100000 :=
  ⟨(idx s e).toInt.toNat, by have := h s e; omega⟩

/-- One hidden unit. -/
def hidden (f : Fin 128 → EReal) (W : Fin 128 → Fin 64 → EReal) (b : Fin 64 → EReal) (n : Fin 64) : EReal :=
  max ((∑ k : Fin 128, f k * W k n) + b n) 0

/-- The score from the relation features. -/
def edgeOut (f : Fin 128 → EReal) (W : Fin 128 → Fin 64 → EReal) (b : Fin 64 → EReal) (w2 : Fin 64 → EReal) (b2 : EReal) : EReal :=
  (∑ n : Fin 64, hidden f W b n * w2 n) + b2

/-- The score of edge `e`: the function of the six arguments both programs compute. `W1` is given as stored,
    hidden unit first. -/
def result (x : Fin 100000 → Fin 32 → EReal) (src dst : Fin 1000000 → Fin 100000)
    (W1 : Fin 64 → Fin 128 → EReal) (b1 : Fin 64 → EReal) (W2 : Fin 64 → EReal) (b2 : EReal) (e : Fin 1000000) : EReal :=
  edgeOut (relR (x (src e)) (x (dst e))) (fun k n => W1 n k) b1 W2 b2

/-- A product with the reciprocal is the quotient, off a zero divisor. -/
theorem mul_div_one (a y : EReal) (hy : y ≠ 0) : a * Ideal.div 1 y = Ideal.div a y := by
  unfold Ideal.div
  rw [if_neg hy, if_neg hy, one_mul]

/-- The two tables' rows combine to the relation features as written, when no divisor `x_j c + eps` is zero. -/
theorem relK_tab (x : Fin 100000 → Fin 32 → EReal) (i j : Fin 100000)
    (hne : ∀ c : Fin 32, x j c + eps ≠ 0) (k : Fin 128) :
    relK (tabP x i) (tabQ x j) k = relR (x i) (x j) k := by
  unfold relK relR tabP tabQ
  by_cases h1 : k.val < 32
  · simp only [if_pos h1]
    exact mul_div_one _ _ (hne _)
  · by_cases h2 : k.val < 64
    · simp only [if_neg h1, if_pos h2]
    · simp only [if_neg h1, if_neg h2]

end Cert.EdgeSpec

end
-- ==== Proof.PayloadAt.lean ====
/-
  The kernel body's arithmetic read at one output element.

  The body takes two 4096 by 128 blocks A and B, a 128 by 64 block W, two rows b and w of 64, and one number c. Along each
  row it forms 128 features, column k by the quarter k lies in: A r k * B r k below 32, A r k - B r k below 64,
  |A r k - B r k| below 96, and |A r k - B r k| / (max (A r k) (B r k) + eps) from 96 on. It multiplies the features by W,
  adds b, clamps below at zero, weighs by w, sums the 64 lanes and adds c. Over the extended reals, with every operation
  exact, the value at row r is therefore

      (sum over n of  max ((sum over k of  f r k * W k n) + b n) 0 * w n) + c,

  which is the score `edgeOut` of the relation features `relK` of rows r of A and B. The proof reads each layer at an
  index: the column counter at (r, k) is the word k, and a signed comparison of it with 32, 64 or 96 is the comparison of
  naturals; the product onto a zero accumulator at (r, n) is the sum over the one contracted axis; the lane sum at r is
  the sum over the 64 columns; a row spread over 4096 rows reads its one row, and a column of 4096 viewed as 4096 by 1
  reads the same entry.
-/
import proofs.«425139_j24481313587800_3_alg».proof.Proof.Gen.KernelIdeal.Skeleton
import proofs.«425139_j24481313587800_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

namespace Cert.KernelIdeal.PayloadAt

open Cert.KernelIdeal Cert.KernelIdeal.Gen Cert.EdgeSpec Idealize.ShloMosaic Idealize.SL.Sem Idealize.ShloMosaic.ValueIdx

/-! ## Words: the column counter and its comparisons -/

/-- A word below 2^31 read as a signed integer is itself. -/
theorem toInt_word (c : Nat) (hc : c < 2147483648) : (BitVec.ofNat 32 c).toInt = (c : Int) := by
  have e : (BitVec.ofNat 32 c).toNat = c := by rw [BitVec.toNat_ofNat]; omega
  rw [BitVec.toInt_eq_toNat_of_lt (by rw [e]; omega), e]

/-- The signed comparison of a column number with a small constant is the comparison of the naturals. -/
theorem slt_word (k : Fin 128) (c : Nat) (hc : c < 2147483648) :
    IntOp.cmpi .slt (BitVec.ofNat 32 k.val) (BitVec.ofNat 32 c) = if k.val < c then 1#1 else 0#1 := by
  have hk := k.isLt
  unfold IntOp.cmpi
  show BitVec.ofBool ((BitVec.ofNat 32 k.val).slt (BitVec.ofNat 32 c)) = _
  have h1 := toInt_word k.val (by omega)
  have h2 := toInt_word c hc
  by_cases h : k.val < c
  · rw [if_pos h]
    have : (BitVec.ofNat 32 k.val).slt (BitVec.ofNat 32 c) = true := by
      rw [BitVec.slt_iff_toInt_lt, h1, h2]; omega
    rw [this]; rfl
  · rw [if_neg h]
    have : (BitVec.ofNat 32 k.val).slt (BitVec.ofNat 32 c) = false := by
      rw [Bool.eq_false_iff, Ne, BitVec.slt_iff_toInt_lt, h1, h2]; omega
    rw [this]; rfl

/-- The column counter at (r, k) is the word k. -/
theorem iota_at (r : Fin 4096) (k : Fin 128) :
    iota .tc S4096x128 32 [1] iota_S4096x128_d1_w32 (ix2 r k) = BitVec.ofNat 32 k.val :=
  iota_single_apply .tc S4096x128 32 1 _ (ix2 r k)

/-! ## The 128 features of a row -/

/-- The selected feature at (r, k): by the quarter k lies in, the product, the difference, the absolute difference, or the
    absolute difference over the maximum plus the small constant. -/
theorem feat_at (a b : FVec Ideal S4096x128 .f32) (r : Fin 4096) (k : Fin 128) :
    select (cmpi .slt (iota .tc S4096x128 32 [1] iota_S4096x128_d1_w32) (broadcast S4096x128 32#32)) (mulf a b)
      (select (cmpi .slt (iota .tc S4096x128 32 [1] iota_S4096x128_d1_w32) (broadcast S4096x128 64#32)) (subf a b)
        (select (cmpi .slt (iota .tc S4096x128 32 [1] iota_S4096x128_d1_w32) (broadcast S4096x128 96#32)) (absf (subf a b))
          (divf (absf (subf a b)) (addf (maximumf a b) (broadcast S4096x128 (Scalar.ofBits .f32 0x322BCC77#32))))))
      (ix2 r k)
    = relK (fun k => a (ix2 r k)) (fun k => b (ix2 r k)) k := by
  show Scalar.select (IntOp.cmpi .slt (iota .tc S4096x128 32 [1] iota_S4096x128_d1_w32 (ix2 r k)) (BitVec.ofNat 32 32))
      (a (ix2 r k) * b (ix2 r k))
      (Scalar.select (IntOp.cmpi .slt (iota .tc S4096x128 32 [1] iota_S4096x128_d1_w32 (ix2 r k)) (BitVec.ofNat 32 64))
        (a (ix2 r k) - b (ix2 r k))
        (Scalar.select (IntOp.cmpi .slt (iota .tc S4096x128 32 [1] iota_S4096x128_d1_w32 (ix2 r k)) (BitVec.ofNat 32 96))
          (abs' (a (ix2 r k) - b (ix2 r k)))
          (Ideal.div (abs' (a (ix2 r k) - b (ix2 r k))) (max (a (ix2 r k)) (b (ix2 r k)) + eps)))) = _
  rw [iota_at, slt_word k 32 (by decide), slt_word k 64 (by decide), slt_word k 96 (by decide)]
  unfold relK
  by_cases h1 : k.val < 32
  · rw [if_pos h1, if_pos h1, select_one]
  · rw [if_neg h1, if_neg h1, select_zero]
    by_cases h2 : k.val < 64
    · rw [if_pos h2, if_pos h2, select_one]
    · rw [if_neg h2, if_neg h2, select_zero]
      by_cases h3 : k.val < 96
      · rw [if_pos h3, if_pos h3, select_one]
      · rw [if_neg h3, if_neg h3, select_zero]

/-! ## The product with the weights, at an element -/

/-- The left operand's index under output index i and contraction index q: row i 0 … -/
theorem lhs_dot_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
/-- … column q. -/
theorem lhs_dot_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
/-- The right operand's: row q … -/
theorem rhs_dot_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
/-- … column i 1. -/
theorem rhs_dot_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The product onto the zero accumulator at (r, n): the sum over the 128 columns of the left row r times the right
    column n. -/
theorem mm_at (L : FVec Ideal S4096x128 .f32) (R : FVec Ideal S128x64 .f32) (r : Fin 4096) (n : Fin 64) :
    matmul dot_S4096x128_S128x64_S4096x64_1_0_0_1_n_n (some .fp32) L R (constant S4096x64 .f32 0x00000000#32) (ix2 r n)
      = ∑ k : Fin 128, L (ix2 r k) * R (ix2 k n) := by
  refine (Ideal.matmul_constant_zero_apply dot_S4096x128_S128x64_S4096x64_1_0_0_1_n_n (some .fp32) L R (ix2 r n)).trans ?_
  rw [← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 r n) ((contrEquiv1 dot_S4096x128_S128x64_S4096x64_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S4096x128_S128x64_S4096x64_1_0_0_1_n_n.rhsIdx (ix2 r n) ((contrEquiv1 dot_S4096x128_S128x64_S4096x64_1_0_0_1_n_n 128 rfl rfl).symm k) = ix2 k n := funext fun a => Fin.ext (by
    match a with
    | ⟨0, _⟩ => exact (rhs_dot_0 _ _).trans hk
    | ⟨1, _⟩ => exact rhs_dot_1 _ _)
  rw [el, er]

/-! ## The lane sum and the column view -/

/-- The lane sum at row r: the sum over the 64 columns of row r. -/
theorem red_at (v : FVec Ideal S4096x64 .f32) (r : Fin 4096) :
    multiReduction (F := Ideal) .add [1] S4096 v 0x00000000#32 reduces_S4096x64_S4096 (.inl rfl) rfl (ix1 r)
      = ∑ n : Fin 64, v (ix2 r n) := by
  refine (Ideal.multiReduction_add_single (a := (1 : Fin S4096x64.rank)) v 0x00000000#32 reduces_S4096x64_S4096 (.inl rfl) rfl (ix1 r)).trans ?_
  refine Finset.sum_congr rfl fun n _ => ?_
  refine congrArg v (funext fun a => Fin.ext ?_)
  match a with
  | ⟨0, _⟩ => rfl
  | ⟨1, _⟩ => rfl

/-- A column of 4096 values viewed as a 4096 by 1 block reads, at (r, 0), the value at r. -/
theorem cast_col (v : FVec Ideal S4096 .f32) (r : Fin 4096) :
    shapeCast S4096x1 v shapeCasts_S4096_S4096x1 (ix2 r (0 : Fin 1)) = v (ix1 r) :=
  shapeCast_apply v shapeCasts_S4096_S4096x1 (ix2 r (0 : Fin 1)) (ix1 r) (by
    rw [Shape.rowMajor_val_one, Shape.rowMajor_val_two]
    show r.val = r.val * 1 + 0
    omega)

/-- Everything after the product, at (r, 0): add the bias row, clamp below at zero, weigh by the second row, sum the 64
    lanes, add the last constant. -/
theorem tail_at (m : FVec Ideal S4096x64 .f32) (b w : FVec Ideal S1x64 .f32) (c : FVec Ideal S1x1 .f32) (r : Fin 4096) :
    addf (shapeCast S4096x1 (multiReduction (F := Ideal) .add [1] S4096
        (mulf (maximumf (addf m (broadcastTo S4096x64 b broadcasts_S1x64_S4096x64)) (broadcast S4096x64 (Scalar.ofBits .f32 0x00000000#32)))
          (broadcastTo S4096x64 w broadcasts_S1x64_S4096x64)) 0x00000000#32 reduces_S4096x64_S4096 (.inl rfl) rfl) shapeCasts_S4096_S4096x1)
      (broadcastTo S4096x1 c broadcasts_S1x1_S4096x1) (ix2 r (0 : Fin 1))
    = (∑ n : Fin 64, max (m (ix2 r n) + b (ix2 (0 : Fin 1) n)) 0 * w (ix2 (0 : Fin 1) n)) + c (ix2 (0 : Fin 1) (0 : Fin 1)) := by
  show shapeCast S4096x1 _ shapeCasts_S4096_S4096x1 (ix2 r (0 : Fin 1)) + broadcastTo S4096x1 c broadcasts_S1x1_S4096x1 (ix2 r (0 : Fin 1)) = _
  rw [cast_col, red_at, broadcastTo_1b_ab_apply]
  refine congrArg (· + _) (Finset.sum_congr rfl fun n _ => ?_)
  show max (m (ix2 r n) + broadcastTo S4096x64 b broadcasts_S1x64_S4096x64 (ix2 r n)) (Ideal.ofBits .f32 0x00000000#32) * broadcastTo S4096x64 w broadcasts_S1x64_S4096x64 (ix2 r n) = _
  rw [broadcastTo_1b_ab_apply, broadcastTo_1b_ab_apply, Ideal.ofBits_zero_f32]

/-! ## The whole body at an output element -/

/-- The body's arithmetic at output (r, 0) is the score of the relation features of rows r of the two blocks. -/
theorem pay_at (x0 x1 : Vec Ideal S4096x128 .f32) (x2 : Vec Ideal S128x64 .f32) (x3 x4 : Vec Ideal S1x64 .f32) (x5 : Vec Ideal S1x1 .f32) (r : Fin 4096) :
    k0_pay1 (F := Ideal) x0 x1 x2 x3 x4 x5 (ix2 r (0 : Fin 1))
      = edgeOut (relK (fun k => x0 (ix2 r k)) (fun k => x1 (ix2 r k)))
          (fun k n => x2 (ix2 k n)) (fun n => x3 (ix2 (0 : Fin 1) n)) (fun n => x4 (ix2 (0 : Fin 1) n)) (x5 (ix2 (0 : Fin 1) (0 : Fin 1))) := by
  unfold k0_pay1
  dsimp only
  rw [shapeCast_self x0, shapeCast_self x1, shapeCast_self x2, shapeCast_self x3, shapeCast_self x5]
  refine (tail_at _ x3 x4 x5 r).trans ?_
  unfold edgeOut EdgeSpec.hidden
  refine congrArg (· + _) (Finset.sum_congr rfl fun n _ => ?_)
  refine congrArg (fun t => max (t + _) 0 * _) ?_
  refine (mm_at _ x2 r n).trans ?_
  exact Finset.sum_congr rfl fun k _ => congrArg (· * _) (feat_at x0 x1 r k)

end Cert.KernelIdeal.PayloadAt

end
-- ==== Proof.OutValue.lean ====
/-
  What the kernel program's result holds: the edge score of the gathered table rows, edge by edge.

  Row r of what grid point t writes back is the score of row 4096 t + r of the two gathered tables (the four small
  windows hold their whole arrays), so the 245 blocks together are ONE column: row R holds the score of the tables'
  row R. Every row lies in some point's block, so after the run the padded column is that function everywhere. The host
  lines after the launch keep its first 1000000 rows and drop the unit axis.
-/
import proofs.«425139_j24481313587800_3_alg».proof.Proof.Blocks
import proofs.«425139_j24481313587800_3_alg».proof.Proof.Spec
import proofs.«425139_j24481313587800_3_alg».proof.Proof.PayloadAt
import Idealize.ShloMosaic.Lib.Pipeline.Value
import Idealize.ShloMosaic.Lib.ValueIdx
import Idealize.ShloMosaic.Lib.StableHlo.Run

set_option maxRecDepth 16384

noncomputable section

namespace Cert.KernelIdeal.OutValue

open Cert.KernelIdeal Cert.KernelIdeal.Gen Cert.KernelIdeal.Launched Cert.KernelIdeal.Blocks Cert.KernelIdeal.PayloadAt Cert.EdgeSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The score of one row from six arrays: the two tables' row, the transposed weights, the bias row, the weight row and
    the last bias. -/
def rowScore (tp tq : S1003520x128.Idx → EReal) (w1 : S128x64.Idx → EReal) (b1 w2 : S1x64.Idx → EReal) (b2 : S1x1.Idx → EReal)
    (R : Fin 1003520) : EReal :=
  edgeOut (relK (fun k => tp (ix2 R k)) (fun k => tq (ix2 R k)))
    (fun k n => w1 (ix2 k n)) (fun n => b1 (ix2 (0 : Fin 1) n)) (fun n => w2 (ix2 (0 : Fin 1) n)) (b2 (ix2 (0 : Fin 1) (0 : Fin 1)))

/-- The body's store, row by row: the score of the row of the two table blocks. -/
theorem out_at (x0 x1 : Vec Ideal S4096x128 .f32) (x2 : Vec Ideal S128x64 .f32) (x3 x4 : Vec Ideal S1x64 .f32) (x5 : Vec Ideal S1x1 .f32) (r : Fin 4096) :
    outBlk (F := Ideal) x0 x1 x2 x3 x4 x5 (ix2 r (0 : Fin 1))
      = edgeOut (relK (fun k => x0 (ix2 r k)) (fun k => x1 (ix2 r k)))
          (fun k n => x2 (ix2 k n)) (fun n => x3 (ix2 (0 : Fin 1) n)) (fun n => x4 (ix2 (0 : Fin 1) n)) (x5 (ix2 (0 : Fin 1) (0 : Fin 1))) := by
  unfold outBlk
  rw [View.canon_unit_zero hz]
  simp only [View.ld_unit_zero (S := S4096x128) hz, View.ld_unit_zero (S := S128x64) hz, View.ld_unit_zero (S := S1x64) hz, View.ld_unit_zero (S := S1x1) hz]
  exact pay_at x0 x1 x2 x3 x4 x5 r

/-- The score depends on its six ingredients only through their values. -/
theorem edge_congr {f f' g g' : Fin 128 → EReal} {W W' : Fin 128 → Fin 64 → EReal} {b b' w w' : Fin 64 → EReal} {s s' : EReal}
    (hf : ∀ k, f k = f' k) (hg : ∀ k, g k = g' k) (hW : ∀ k n, W k n = W' k n) (hb : ∀ n, b n = b' n) (hw : ∀ n, w n = w' n) (hs : s = s') :
    edgeOut (relK f g) W b w s = edgeOut (relK f' g') W' b' w' s' := by
  obtain rfl : f = f' := funext hf
  obtain rfl : g = g' := funext hg
  obtain rfl : W = W' := funext fun k => funext (hW k)
  obtain rfl : b = b' := funext hb
  obtain rfl : w = w' := funext hw
  subst hs
  rfl

/-! ## Reading a block of an array: variable-level -/

theorem rd0 (A : S1003520x128.Idx → EReal) (t : Fin cfg0.N) (r : Fin 4096) (k : Fin 128) :
    (((cfg0.win 0).blk t).view.read (Elt Ideal) A : S4096x128.Idx → EReal) (ix2 r k) = A (ix2 (rowAt t r) k) := read0 A t r k
theorem rd1 (A : S1003520x128.Idx → EReal) (t : Fin cfg0.N) (r : Fin 4096) (k : Fin 128) :
    (((cfg0.win 1).blk t).view.read (Elt Ideal) A : S4096x128.Idx → EReal) (ix2 r k) = A (ix2 (rowAt t r) k) := read1 A t r k
theorem rd2 (A : S128x64.Idx → EReal) (t : Fin cfg0.N) (k : Fin 128) (n : Fin 64) :
    (((cfg0.win 2).blk t).view.read (Elt Ideal) A : S128x64.Idx → EReal) (ix2 k n) = A (ix2 k n) := read2 A t k n
theorem rd3 (A : S1x64.Idx → EReal) (t : Fin cfg0.N) (n : Fin 64) :
    (((cfg0.win 3).blk t).view.read (Elt Ideal) A : S1x64.Idx → EReal) (ix2 (0 : Fin 1) n) = A (ix2 (0 : Fin 1) n) := read3 A t n
theorem rd4 (A : S1x64.Idx → EReal) (t : Fin cfg0.N) (n : Fin 64) :
    (((cfg0.win 4).blk t).view.read (Elt Ideal) A : S1x64.Idx → EReal) (ix2 (0 : Fin 1) n) = A (ix2 (0 : Fin 1) n) := read4 A t n
theorem rd5 (A : S1x1.Idx → EReal) (t : Fin cfg0.N) :
    (((cfg0.win 5).blk t).view.read (Elt Ideal) A : S1x1.Idx → EReal) (ix2 (0 : Fin 1) (0 : Fin 1)) = A (ix2 (0 : Fin 1) (0 : Fin 1)) := read5 A t
theorem rd6 (A : S1003520x1.Idx → EReal) (t : Fin cfg0.N) (r : Fin 4096) :
    (((cfg0.win 6).blk t).view.read (Elt Ideal) A : S4096x1.Idx → EReal) (ix2 r (0 : Fin 1)) = A (ix2 (rowAt t r) (0 : Fin 1)) :=
  congrArg A (emb6 t r)

/-- Row r of the block the body stores at point t, from the six arrays' blocks there: the score of row 4096 t + r. -/
theorem blockScore (A0 A1 : S1003520x128.Idx → EReal) (A2 : S128x64.Idx → EReal) (A3 A4 : S1x64.Idx → EReal) (A5 : S1x1.Idx → EReal)
    (t : Fin cfg0.N) (r : Fin 4096) :
    outBlk (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5) (ix2 r (0 : Fin 1))
      = rowScore A0 A1 A2 A3 A4 A5 (rowAt t r) :=
  (out_at _ _ _ _ _ _ r).trans (edge_congr (rd0 A0 t r) (rd1 A1 t r) (rd2 A2 t) (rd3 A3 t) (rd4 A4 t) (rd5 A5 t))

/-! ## The windows' blocks are blocks of what the launch finds -/

theorem iblk0_fn (c : Dev nD) (t : Fin cfg0.N) :
    (iblk m c 0 t : S4096x128.Idx → EReal) = ((cfg0.win 0).blk t).view.read (Elt Ideal) (V m c main_v15) := rfl
theorem iblk1_fn (c : Dev nD) (t : Fin cfg0.N) :
    (iblk m c 1 t : S4096x128.Idx → EReal) = ((cfg0.win 1).blk t).view.read (Elt Ideal) (V m c main_v16) := rfl
theorem iblk2_fn (c : Dev nD) (t : Fin cfg0.N) :
    (iblk m c 2 t : S128x64.Idx → EReal) = ((cfg0.win 2).blk t).view.read (Elt Ideal) (V m c main_v17) := rfl
theorem iblk3_fn (c : Dev nD) (t : Fin cfg0.N) :
    (iblk m c 3 t : S1x64.Idx → EReal) = ((cfg0.win 3).blk t).view.read (Elt Ideal) (V m c main_v18) := rfl
theorem iblk4_fn (c : Dev nD) (t : Fin cfg0.N) :
    (iblk m c 4 t : S1x64.Idx → EReal) = ((cfg0.win 4).blk t).view.read (Elt Ideal) (V m c main_arg4) := rfl
theorem iblk5_fn (c : Dev nD) (t : Fin cfg0.N) :
    (iblk m c 5 t : S1x1.Idx → EReal) = ((cfg0.win 5).blk t).view.read (Elt Ideal) (V m c main_v19) := rfl

/-- The padded result column as one function of what the launch finds in its six input arrays. -/
def G (c : Dev nD) : S1003520x1.Idx → EReal := fun i =>
  rowScore (V m c main_v15) (V m c main_v16) (V m c main_v17) (V m c main_v18) (V m c main_arg4) (V m c main_v19)
    ⟨(i 0).val, (i 0).isLt⟩

theorem G_at (c : Dev nD) (R : Fin 1003520) :
    G m c (ix2 R (0 : Fin 1)) = rowScore (V m c main_v15) (V m c main_v16) (V m c main_v17) (V m c main_v18) (V m c main_arg4) (V m c main_v19) R := rfl

/-- What the body leaves in the output buffer at point t, as the score of the launch's arrays' blocks. -/
theorem after6_eq (c : Dev nD) (t : Fin cfg0.N) : (dats m 0 c).after 6 t
    = outBlk (F := Ideal) (((cfg0.win 0).blk t).view.read (Elt Ideal) (V m c main_v15)) (((cfg0.win 1).blk t).view.read (Elt Ideal) (V m c main_v16))
        (((cfg0.win 2).blk t).view.read (Elt Ideal) (V m c main_v17)) (((cfg0.win 3).blk t).view.read (Elt Ideal) (V m c main_v18))
        (((cfg0.win 4).blk t).view.read (Elt Ideal) (V m c main_arg4)) (((cfg0.win 5).blk t).view.read (Elt Ideal) (V m c main_v19)) := by
  rw [after_6, iblk0_fn, iblk1_fn, iblk2_fn, iblk3_fn, iblk4_fn, iblk5_fn]

/-- What point t writes back is its block of the one column `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6_eq]
  funext j
  obtain ⟨r, q, rfl⟩ : ∃ (r : Fin 4096) (q : Fin 1), j = ix2 r q := ⟨j 0, j 1, eq_ix2 j⟩
  obtain rfl : q = 0 := Subsingleton.elim _ _
  change outBlk (F := Ideal) _ _ _ _ _ _ (ix2 r (0 : Fin 1)) = _
  refine (blockScore (V m c main_v15) (V m c main_v16) (V m c main_v17) (V m c main_v18) (V m c main_arg4) (V m c main_v19) t r).trans ?_
  exact ((rd6 (G m c) t r).trans (G_at m c (rowAt t r))).symm

/-- The padded result column after the run. -/
theorem final (c : Dev nD) : (dats m 0 c).arrAt 6 cfg0.N = G m c :=
  (dats m 0 c).arrAt_eq_of_cover 6 (G m c) (fun t _ => flushed_eq m c t) cover

/-- The result buffer after the host lines that follow the launch: the first 1000000 rows of the column, the unit axis
    dropped. -/
theorem tail_eq (c : Dev nD) :
    (Pipeline.afterTail₀ cfgs (dats m) 0 (V0 m) [hostOps1] c main_v22 : S1000000.Idx → EReal)
      = shapeCast S1000000 (extractStridedSlice S1000000x1 ![0, 0] (G m c) slices_S1003520x1_S1000000x1_0_0) shapeCasts_S1000000x1_S1000000 := by
  have hW : Pipeline.withArrays (cfgs 0).spec c (V0 m c) (fun w => (dats m 0 c).arrAt w (cfgs 0).N) (Proc.devRef .tc main_v20) = G m c :=
    (Pipeline.withArrays_arr spec0 launch0.win.arr_inj c _ _ 6).trans (final m c)
  unfold Pipeline.afterTail₀
  show StableHlo.after hostOps1 _ (Proc.devRef .tc main_v22) = _
  after_results
  rw [hW]
  rfl

/-- The row of the padded column an edge's result is cut from. -/
abbrev padRow (e : Fin 1000000) : Fin 1003520 := ⟨e.val, by have := e.isLt; omega⟩

/-- Keeping the first 1000000 rows of a column, read at row e. -/
theorem slice_at (x : S1003520x1.Idx → EReal) (e : Fin 1000000) :
    extractStridedSlice S1000000x1 ![0, 0] x slices_S1003520x1_S1000000x1_0_0 (ix2 e (0 : Fin 1)) = x (ix2 (padRow e) (0 : Fin 1)) :=
  extractStridedSlice_apply ![0, 0] x slices_S1003520x1_S1000000x1_0_0 (ix2 e (0 : Fin 1)) (ix2 (padRow e) (0 : Fin 1)) (fun a => match a with
    | ⟨0, _⟩ => by show e.val = 0 + e.val; omega
    | ⟨1, _⟩ => by show 0 = 0 + 0; rfl)

/-- Dropping the unit axis of a column, read at entry e. -/
theorem cast_at (y : S1000000x1.Idx → EReal) (e : Fin 1000000) :
    shapeCast S1000000 y shapeCasts_S1000000x1_S1000000 (ix1 e) = y (ix2 e (0 : Fin 1)) :=
  shapeCast_apply y shapeCasts_S1000000x1_S1000000 (ix1 e) (ix2 e (0 : Fin 1))
    (by rewrite [Shape.rowMajor_val_two, Shape.rowMajor_val_one]; show e.val * 1 + 0 = e.val; omega)

/-- Edge e of the result is row e of the column. -/
theorem tail_at (c : Dev nD) (e : Fin 1000000) :
    (Pipeline.afterTail₀ cfgs (dats m) 0 (V0 m) [hostOps1] c main_v22 : S1000000.Idx → EReal) (ix1 e)
      = G m c (ix2 (padRow e) (0 : Fin 1)) := by
  rw [tail_eq]
  exact (cast_at _ e).trans (slice_at (G m c) e)

end Cert.KernelIdeal.OutValue

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.TablesAt.lean ====
/-
  The arrays the program hands to its one launch, read element by element.

  Before the launch the program builds, from the node features x : [100000, 32] and the edge list : [2, 1000000],
  two tables of width 128 per node, P n = [x n, log (x n + eps), x n, x n] and
  Q n = [1 / (x n + eps), log (x n + eps), x n, x n]; it pads each row of the edge list with zeros to 1003520
  entries and takes, for every padded entry, the row of P (for the sources) or of Q (for the destinations) the
  entry names. A take wraps a negative index around the table's end, clamps the start of the row it reads into the
  table, and replaces the row by a junk row when the wrapped index lies outside the table. When every index of the
  edge list lies in [0, 100000) none of the three corrections does anything, the padding zeros included, so that row
  e < 1000000 of a taken table is the table's row at the node the edge list names. The first weight matrix is handed
  over transposed, the two biases with a unit axis in front.
-/
import proofs.«425139_j24481313587800_3_alg».proof.Proof.KernelIdealLaunched
import proofs.«425139_j24481313587800_3_alg».proof.Proof.Spec
import proofs.«425139_j24481313587800_3_alg».proof.Proof.LibGatherRows
import Idealize.ShloMosaic.Lib.StableHlo.Run
import Idealize.ShloMosaic.Lib.ValueIdx
import Idealize.ShloMosaic.Lib.Pipeline.Value
import Idealize.ShloMosaic.Lib.ValueLayout
import Idealize.ShloMosaic.Lib.ReduceAll
import Idealize.ShloMosaic.Lib.IdealHost
import Idealize.ShloMosaic.Lib.KernelVsHost

set_option maxRecDepth 16384

noncomputable section

namespace Cert.KernelIdeal.TablesAt

open Cert.KernelIdeal Cert.KernelIdeal.Gen Cert.KernelIdeal.Launched Cert.EdgeSpec
open Idealize.ShloMosaic Idealize.ShloMosaic.TcCoe Idealize.ShloMosaic.ValueIdx Idealize.SL.Sem

variable (m : (ℓ : Loc nD τ sig) → Buf (Elt Ideal) ℓ)

/-- The node features and the edge list the program was started with, on core `c`. -/
abbrev X (c : Dev nD) : Fin 100000 → Fin 32 → EReal :=
  fun n k => (m ((c : Thread nD τ).loc main_arg0) : S100000x32.Idx → EReal) (ix2 n k)
abbrev E (c : Dev nD) : Fin 2 → Fin 1000000 → BitVec 32 :=
  fun s e => (m ((c : Thread nD τ).loc main_arg1) : S2x1000000.Idx → BitVec 32) (ix2 s e)

/-! ## Typed references -/

/-- Contents moved to a typed reference's own buffer type and back are unchanged. -/
theorem ofBuf_toBuf {Val : EltTy → Type} {T : BufTy} (x : StableHlo.TRef sig T) (v : T.Contents Val) :
    x.ofBuf (x.toBuf v) = v := by
  obtain ⟨r, h, _, _⟩ := x
  subst h
  rfl

/-- Contents moved to a typed reference's own buffer type are the contents. -/
theorem toBuf_eq {Val : EltTy → Type} {T : BufTy} (x : StableHlo.TRef sig T) (v : T.Contents Val)
    (w : x.ref.ty.Contents Val) (e : HEq v w) : x.toBuf v = w := by
  obtain ⟨r, h, _, _⟩ := x
  subst h
  exact eq_of_heq e

/-! ## A take of rows -/

/-- The column of start rows a take reads by: each index, wrapped around the table's end when negative. -/
def startCol (idx : S1003520.Idx → BitVec 32) : S1003520x1.Idx → BitVec 32 :=
  broadcastInDim S1003520x1 ![0] Facts₀.bcast_S1003520_S1003520x1_0
    (select (cmpi .slt idx (broadcastInDim S1003520 ![] Facts₀.bcast_S_S1003520 (constantI S_ 32 0#32)))
      (addi idx (broadcastInDim S1003520 ![] Facts₀.bcast_S_S1003520 (constantI S_ 32 100000#32))) idx)

/-- Which rows' start index lies in the table: the conjunction, over the column's one entry per row, of
    `0 ≤ i` and `i ≤ 99999`. -/
def inTable (col : S1003520x1.Idx → BitVec 32) : S1003520.Idx → BitVec 1 :=
  Host.reduce IntOp.andi
    (andi (cmpi .sge col (broadcastInDim S1003520x1 ![] Facts₀.bcast_S_S1003520x1 (constantI S_ 32 0#32)))
      (cmpi .sle col (broadcastInDim S1003520x1 ![0, 1] Facts₀.bcast_S1x1_S1003520x1_0_1
        (broadcastInDim S1x1 ![1] Facts₀.bcast_S1_S1x1_1 (constantI S1 32 99999#32)))))
    (constantI S_ 1 1#1) Facts₀.reducesTo_S1003520x1_S1003520_d1 Facts₀.h_S_

/-- The take: the table's rows at the start column where the index lies in the table, a junk row elsewhere. -/
def takeRows (T : S100000x128.Idx → EReal) (idx : S1003520.Idx → BitVec 32) : S1003520x128.Idx → EReal :=
  select (broadcastInDim S1003520x128 ![0] Facts₀.bcast_S1003520_S1003520x128_0 (inTable (startCol idx)))
    (Host.gather gather_S100000x128_S1003520x1_S1003520x128_1_0_n_n_0_1_1128 T (startCol idx))
    (broadcastInDim S1003520x128 ![] Facts₀.bcast_S_S1003520x128 (constant (F := Ideal) S_ .f32 0x7FC00000#32))

/-- An index that is not negative is not wrapped: the start column's entry of row `r` is the index itself. -/
theorem startCol_apply (idx : S1003520.Idx → BitVec 32) (h : ∀ r, 0 ≤ (idx r).toInt) (r : Fin 1003520) (u : Fin 1) :
    startCol idx (ix2 r u) = idx (ix1 r) := by
  unfold startCol
  refine (broadcastInDim_apply _ _ _ (ix2 r u) (ix1 r) (fun a => ?_)).trans ?_
  · match a with
    | ⟨0, _⟩ => rfl
  · have hc : IntOp.cmpi .slt (idx (ix1 r)) 0#32 = 0#1 := eq_zero_of_ne_one fun e => by
      have h1 := IntOp.cmpi_slt.mp e
      have h2 := h (ix1 r)
      rw [BitVec.toInt_zero] at h1
      omega
    show Scalar.select (IntOp.cmpi .slt (idx (ix1 r)) 0#32) _ (idx (ix1 r)) = idx (ix1 r)
    rw [hc, select_zero]

/-- A conjunction of ones, started at one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- When every entry of the column lies in the table, every row's bit is one. -/
theorem inTable_eq_one (col : S1003520x1.Idx → BitVec 32)
    (h : ∀ i, 0 ≤ (col i).toInt ∧ (col i).toInt < 100000) (r : S1003520.Idx) : inTable col r = 1#1 := by
  unfold inTable
  rw [Host.reduce_eq_foldl]
  refine foldl_andi_ones _ (fun i => ?_) _
  have h99 : (99999#32 : BitVec 32).toInt = 99999 := by decide
  refine IntOp.andi_eq_one.mpr ⟨IntOp.cmpi_sge.mpr ?_, IntOp.cmpi_sle.mpr ?_⟩
  · show (0#32 : BitVec 32).toInt ≤ (col i).toInt
    rw [BitVec.toInt_zero]; exact (h i).1
  · show (col i).toInt ≤ (99999#32 : BitVec 32).toInt
    rw [h99]; have := (h i).2; omega

/-- THE TAKE AT `(r, k)`, when every index lies in the table: the table's row the index names, at column `k`. -/
theorem takeRows_apply (T : S100000x128.Idx → EReal) (idx : S1003520.Idx → BitVec 32)
    (h : ∀ r, 0 ≤ (idx r).toInt ∧ (idx r).toInt < 100000) (r : Fin 1003520) (k : Fin 128) :
    takeRows T idx (ix2 r k)
      = T (ix2 (⟨(idx (ix1 r)).toInt.toNat, by have := h (ix1 r); omega⟩ : Fin 100000) k) := by
  have hs : ∀ i, startCol idx i = idx (ix1 (i 0)) := fun i => by
    obtain ⟨p, q, rfl⟩ : ∃ (p : Fin 1003520) (q : Fin 1), i = ix2 p q := ⟨i 0, i 1, eq_ix2 i⟩
    exact startCol_apply idx (fun r => (h r).1) p q
  have hm : broadcastInDim S1003520x128 ![0] Facts₀.bcast_S1003520_S1003520x128_0 (inTable (startCol idx)) (ix2 r k)
      = 1#1 := by
    refine (broadcastInDim_apply _ _ _ (ix2 r k) (ix1 r) (fun a => ?_)).trans
      (inTable_eq_one _ (fun i => by rw [hs i]; exact h _) _)
    match a with
    | ⟨0, _⟩ => rfl
  unfold takeRows
  rw [select_apply, hm, select_one]
  refine (GatherRows.gather_col_apply (N := 100000) (B := 128) (R := 1003520) (by decide)
    Facts₀.gather_S100000x128_S1003520x1_S1003520x128_1_0_n_n_0_1_1128_wf T (startCol idx) (ix2 r k)).trans ?_
  refine congrArg T (congrArg (fun p => ix2 p k) (Fin.ext ?_))
  show min (startCol idx (ix2 r (0 : Fin 1))).toInt.toNat (100000 - 1) = (idx (ix1 r)).toInt.toNat
  rw [hs]
  have := h (ix1 r)
  show min (idx (ix1 r)).toInt.toNat (100000 - 1) = (idx (ix1 r)).toInt.toNat
  omega

/-! ## A row of the edge list, padded -/

/-- Row `off 0` of the edge list, followed by 3520 zeros. -/
def padRow (E : S2x1000000.Idx → BitVec 32) (off : Fin 2 → Nat) (hs : S2x1000000.Slices off S1x1000000) :
    S1003520.Idx → BitVec 32 :=
  pad S1003520 ![0] ![3520] ![0]
    (shapeCast S1000000 (extractStridedSlice S1x1000000 off E hs) Facts₀.shapeCasts_S1x1000000_S1000000)
    (constantI S_ 32 0#32) Facts₀.pads_S1000000_S1003520_035200 Facts₀.h_S_

/-- Before the padding the row is the edge list's. -/
theorem padRow_apply_lt (E : S2x1000000.Idx → BitVec 32) (off : Fin 2 → Nat) (hs : S2x1000000.Slices off S1x1000000)
    (s : Fin 2) (h0 : off 0 = s.val) (h1 : off 1 = 0) (e : Fin 1000000) :
    padRow E off hs (ix1 (⟨e.val, by omega⟩ : Fin 1003520)) = E (ix2 s e) := by
  unfold padRow
  refine (pad_apply_of_inside _ _ _ _ _ _ _ (ix1 (⟨e.val, by omega⟩ : Fin 1003520)) (ix1 e) (fun a => ?_)).trans ?_
  · match a with
    | ⟨0, _⟩ => show e.val = 0 + e.val * (0 + 1); omega
  refine (shapeCast_1a_a_apply _ _ e).trans ?_
  exact extractStridedSlice_apply off E hs (ix2 (0 : Fin 1) e) (ix2 s e) (fun a => by
    match a with
    | ⟨0, _⟩ => show s.val = off 0 + 0; omega
    | ⟨1, _⟩ => show e.val = off 1 + e.val; omega)

/-- In the padding it is zero. -/
theorem padRow_apply_ge (E : S2x1000000.Idx → BitVec 32) (off : Fin 2 → Nat) (hs : S2x1000000.Slices off S1x1000000)
    (r : Fin 1003520) (hr : 1000000 ≤ r.val) : padRow E off hs (ix1 r) = 0#32 := by
  unfold padRow
  refine (pad_apply_of_not_inside _ _ _ _ _ _ _ (ix1 r) (0 : Fin 1) (fun hin => ?_)).trans rfl
  have h3 : (r.val - 0) / (0 + 1) < 1000000 := hin.2.2
  omega

/-- So every entry of the padded row names a node when every entry of the edge list does. -/
theorem padRow_range (E : S2x1000000.Idx → BitVec 32) (off : Fin 2 → Nat) (hs : S2x1000000.Slices off S1x1000000)
    (s : Fin 2) (h0 : off 0 = s.val) (h1 : off 1 = 0)
    (hE : ∀ e : Fin 1000000, 0 ≤ (E (ix2 s e)).toInt ∧ (E (ix2 s e)).toInt < 100000) (i : S1003520.Idx) :
    0 ≤ (padRow E off hs i).toInt ∧ (padRow E off hs i).toInt < 100000 := by
  obtain ⟨r, rfl⟩ : ∃ r : Fin 1003520, i = ix1 r := ⟨i 0, eq_ix1 i⟩
  by_cases hr : r.val < 1000000
  · have e := padRow_apply_lt E off hs s h0 h1 ⟨r.val, hr⟩
    rw [show (⟨(⟨r.val, hr⟩ : Fin 1000000).val, by omega⟩ : Fin 1003520) = r from rfl] at e
    rw [e]; exact hE _
  · rw [padRow_apply_ge E off hs r (by omega), BitVec.toInt_zero]; omega

/-! ## The two tables -/

/-- Four blocks of 32 columns side by side. -/
def tableOf (a b c d : S100000x32.Idx → EReal) : S100000x128.Idx → EReal :=
  concatenate S100000x128 1 [⟨S100000x32, a⟩, ⟨S100000x32, b⟩, ⟨S100000x32, c⟩, ⟨S100000x32, d⟩]
    Facts₀.concatenates_S100000x32_S100000x32_S100000x32_S100000x32_S100000x128_d1

/-- Column `k` of the four blocks reads block `k / 32` at column `k % 32`. -/
theorem tableOf_apply (a b c d : S100000x32.Idx → EReal) (n : Fin 100000) (k : Fin 128) :
    tableOf a b c d (ix2 n k)
      = if k.val < 32 then a (ix2 n (col k)) else if k.val < 64 then b (ix2 n (col k))
        else if k.val < 96 then c (ix2 n (col k)) else d (ix2 n (col k)) := by
  have hk := k.isLt
  have hi : ∀ b : Fin S100000x32.rank, b.cast (rfl : S100000x32.rank = S100000x128.rank) ≠ (1 : Fin S100000x128.rank) →
      ((ix2 n (col k) : S100000x32.Idx) b).val = ((ix2 n k : S100000x128.Idx) (b.cast rfl)).val := fun b hb => by
    match b with
    | ⟨0, _⟩ => rfl
    | ⟨1, _⟩ => exact absurd rfl hb
  unfold tableOf
  by_cases h1 : k.val < 32
  · rw [if_pos h1]
    exact concatenate_apply_piece (1 : Fin S100000x128.rank) _ _ (ix2 n k) 0 (by show (0 : Nat) < 4; omega) S100000x32 a rfl rfl 0 rfl
      (ix2 n (col k)) hi (by show 0 + k.val % 32 = k.val; omega)
  · rw [if_neg h1]
    by_cases h2 : k.val < 64
    · rw [if_pos h2]
      exact concatenate_apply_piece (1 : Fin S100000x128.rank) _ _ (ix2 n k) 1 (by show (1 : Nat) < 4; omega) S100000x32 b rfl rfl 32 rfl
        (ix2 n (col k)) hi (by show 32 + k.val % 32 = k.val; omega)
    · rw [if_neg h2]
      by_cases h3 : k.val < 96
      · rw [if_pos h3]
        exact concatenate_apply_piece (1 : Fin S100000x128.rank) _ _ (ix2 n k) 2 (by show (2 : Nat) < 4; omega) S100000x32 c rfl rfl 64 rfl
          (ix2 n (col k)) hi (by show 64 + k.val % 32 = k.val; omega)
      · rw [if_neg h3]
        exact concatenate_apply_piece (1 : Fin S100000x128.rank) _ _ (ix2 n k) 3 (by show (3 : Nat) < 4; omega) S100000x32 d rfl rfl 96 rfl
          (ix2 n (col k)) hi (by show 96 + k.val % 32 = k.val; omega)

/-- The logarithm block: `log (x + eps)`, entry by entry. -/
def logTab (x : S100000x32.Idx → EReal) : S100000x32.Idx → EReal :=
  Host.log (addf (x : FVec Ideal S100000x32 .f32)
    (broadcastInDim S100000x32 ![] Facts₀.bcast_S_S100000x32 (constant (F := Ideal) S_ .f32 0x322BCC77#32)))

/-- The reciprocal block: `1 / (x + eps)`, entry by entry. -/
def invTab (x : S100000x32.Idx → EReal) : S100000x32.Idx → EReal :=
  Host.divf (broadcastInDim S100000x32 ![] Facts₀.bcast_S_S100000x32 (constant (F := Ideal) S_ .f32 0x3F800000#32))
    (addf (x : FVec Ideal S100000x32 .f32)
      (broadcastInDim S100000x32 ![] Facts₀.bcast_S_S100000x32 (constant (F := Ideal) S_ .f32 0x322BCC77#32)))

theorem logTab_apply (x : S100000x32.Idx → EReal) (i : S100000x32.Idx) : logTab x i = Ideal.log (x i + eps) := rfl

theorem invTab_apply (x : S100000x32.Idx → EReal) (i : S100000x32.Idx) : invTab x i = Ideal.div 1 (x i + eps) := by
  show Ideal.div (Ideal.ofBits .f32 0x3F800000#32) (x i + eps) = _
  rw [Ideal.ofBits_one_f32]

/-- The first table, row `n`, column `k`. -/
theorem tableP_apply (x : S100000x32.Idx → EReal) (n : Fin 100000) (k : Fin 128) :
    tableOf x (logTab x) x x (ix2 n k) = tabP (fun n k => x (ix2 n k)) n k := by
  rw [tableOf_apply, logTab_apply]
  unfold tabP
  by_cases h1 : k.val < 32
  · rw [if_pos h1, if_pos h1]
  · rw [if_neg h1, if_neg h1]
    by_cases h2 : k.val < 64
    · rw [if_pos h2, if_pos h2]
    · rw [if_neg h2, if_neg h2, ite_self]

/-- The second table, row `n`, column `k`. -/
theorem tableQ_apply (x : S100000x32.Idx → EReal) (n : Fin 100000) (k : Fin 128) :
    tableOf (invTab x) (logTab x) x x (ix2 n k) = tabQ (fun n k => x (ix2 n k)) n k := by
  rw [tableOf_apply, logTab_apply, invTab_apply]
  unfold tabQ
  by_cases h1 : k.val < 32
  · rw [if_pos h1, if_pos h1]
  · rw [if_neg h1, if_neg h1]
    by_cases h2 : k.val < 64
    · rw [if_pos h2, if_pos h2]
    · rw [if_neg h2, if_neg h2, ite_self]

/-! ## The weights and the biases -/

/-- The first weight matrix is handed over transposed. -/
theorem w1_at (c : Dev nD) (k : Fin 128) (n : Fin 64) :
    (V m c main_v17 : S128x64.Idx → EReal) (ix2 k n)
      = (m ((c : Thread nD τ).loc main_arg2) : S64x128.Idx → EReal) (ix2 n k) := by
  have e : (V m c main_v17 : S128x64.Idx → EReal)
      = transpose S128x64 [1, 0] (m ((c : Thread nD τ).loc main_arg2) : S64x128.Idx → EReal)
          Facts₀.transposes_S64x128_S128x64_1_0 := by
    dsimp only [V, V0]
    simp only [hostOps0, hostOps0_1, hostOps0_2, hostOps0_3, hostOps0_4, hostOps0_5, hostOps0_6, List.flatten_cons, List.flatten_nil, List.append_nil, List.cons_append, List.nil_append]
    after_results
  exact (congrFun e _).trans (transpose_ix2_apply _ _ k n)

/-- The first bias is handed over as one row. -/
theorem b1_at (c : Dev nD) (n : Fin 64) :
    (V m c main_v18 : S1x64.Idx → EReal) (ix2 (0 : Fin 1) n)
      = (m ((c : Thread nD τ).loc main_arg3) : S64.Idx → EReal) (ix1 n) := by
  have e : (V m c main_v18 : S1x64.Idx → EReal)
      = shapeCast S1x64 (m ((c : Thread nD τ).loc main_arg3) : S64.Idx → EReal) Facts₀.shapeCasts_S64_S1x64 := by
    dsimp only [V, V0]
    simp only [hostOps0, hostOps0_1, hostOps0_2, hostOps0_3, hostOps0_4, hostOps0_5, hostOps0_6, List.flatten_cons, List.flatten_nil, List.append_nil, List.cons_append, List.nil_append]
    after_results
    rfl
  exact (congrFun e _).trans (shapeCast_a_1a_apply _ _ (0 : Fin 1) n)

/-- The second bias is handed over as a one-by-one matrix. -/
theorem b2_at (c : Dev nD) :
    (V m c main_v19 : S1x1.Idx → EReal) (ix2 (0 : Fin 1) (0 : Fin 1))
      = (m ((c : Thread nD τ).loc main_arg5) : S1.Idx → EReal) (ix1 (0 : Fin 1)) := by
  have e : (V m c main_v19 : S1x1.Idx → EReal)
      = shapeCast S1x1 (m ((c : Thread nD τ).loc main_arg5) : S1.Idx → EReal) Facts₀.shapeCasts_S1_S1x1 := by
    dsimp only [V, V0]
    simp only [hostOps0, hostOps0_1, hostOps0_2, hostOps0_3, hostOps0_4, hostOps0_5, hostOps0_6, List.flatten_cons, List.flatten_nil, List.append_nil, List.cons_append, List.nil_append]
    after_results
    rfl
  exact (congrFun e _).trans (shapeCast_a_1a_apply _ _ (0 : Fin 1) (0 : Fin 1))

/-! ## The two taken tables as the program computes them -/

/-- The first taken table is the take, by the padded source row, of the first table. -/
theorem v15_eq (c : Dev nD) :
    (V m c main_v15 : S1003520x128.Idx → EReal)
      = takeRows
          (tableOf (m ((c : Thread nD τ).loc main_arg0)) (logTab (m ((c : Thread nD τ).loc main_arg0))) (m ((c : Thread nD τ).loc main_arg0)) (m ((c : Thread nD τ).loc main_arg0)))
          (padRow (m ((c : Thread nD τ).loc main_arg1)) ![0, 0] Facts₀.slices_S2x1000000_S1x1000000_0_0) := by
  dsimp only [V, V0]
  simp only [hostOps0, hostOps0_1, hostOps0_2, hostOps0_3, hostOps0_4, hostOps0_5, hostOps0_6, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.reshape_result', StableHlo.nary4_result', StableHlo.nullary_result_ne', StableHlo.unary_result_ne', StableHlo.binary_result_ne', StableHlo.ternary_result_ne', StableHlo.reshape_result_ne', StableHlo.nary_result_ne']
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  simp only [ofBuf_toBuf]
  refine toBuf_eq _ _ _ (heq_of_eq ?_)
  rfl

/-- The second taken table is the take, by the padded destination row, of the second table. -/
theorem v16_eq (c : Dev nD) :
    (V m c main_v16 : S1003520x128.Idx → EReal)
      = takeRows
          (tableOf (invTab (m ((c : Thread nD τ).loc main_arg0))) (logTab (m ((c : Thread nD τ).loc main_arg0))) (m ((c : Thread nD τ).loc main_arg0)) (m ((c : Thread nD τ).loc main_arg0)))
          (padRow (m ((c : Thread nD τ).loc main_arg1)) ![1, 0] Facts₀.slices_S2x1000000_S1x1000000_1_0) := by
  dsimp only [V, V0]
  simp only [hostOps0, hostOps0_1, hostOps0_2, hostOps0_3, hostOps0_4, hostOps0_5, hostOps0_6, List.flatten_cons, List.flatten_nil, List.append_nil, List.cons_append, List.nil_append]
  simp (disch := decide) only [StableHlo.after_cons, StableHlo.after_nil, StableHlo.nullary_result', StableHlo.unary_result', StableHlo.binary_result', StableHlo.ternary_result', StableHlo.reshape_result', StableHlo.nary4_result', StableHlo.nullary_result_ne', StableHlo.unary_result_ne', StableHlo.binary_result_ne', StableHlo.ternary_result_ne', StableHlo.reshape_result_ne', StableHlo.nary_result_ne']
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  simp only [ofBuf_toBuf]
  refine toBuf_eq _ _ _ (heq_of_eq ?_)
  rfl

/-! ## The taken tables, row by row -/

/-- Row `e` of the first taken table is the first table's row at edge `e`'s source. -/
theorem tabP_at (c : Dev nD) (hidx : ∀ s e, 0 ≤ (E m c s e).toInt ∧ (E m c s e).toInt < 100000) (e : Fin 1000000)
    (k : Fin 128) :
    (V m c main_v15 : S1003520x128.Idx → EReal) (ix2 (⟨e.val, by omega⟩ : Fin 1003520) k)
      = tabP (X m c) (node (E m c) hidx 0 e) k := by
  have hr := padRow_range (m ((c : Thread nD τ).loc main_arg1)) ![0, 0] Facts₀.slices_S2x1000000_S1x1000000_0_0 (0 : Fin 2) rfl rfl (hidx 0)
  have hp := padRow_apply_lt (m ((c : Thread nD τ).loc main_arg1)) ![0, 0] Facts₀.slices_S2x1000000_S1x1000000_0_0 (0 : Fin 2) rfl rfl e
  refine (congrFun (v15_eq m c) _).trans ?_
  refine (takeRows_apply _ _ hr (⟨e.val, by omega⟩ : Fin 1003520) k).trans ?_
  refine Eq.trans (congrArg (fun p : Fin 100000 => tableOf (m ((c : Thread nD τ).loc main_arg0)) (logTab (m ((c : Thread nD τ).loc main_arg0))) (m ((c : Thread nD τ).loc main_arg0)) (m ((c : Thread nD τ).loc main_arg0)) (ix2 p k))
    (Fin.ext ?_ : _ = node (E m c) hidx 0 e)) (tableP_apply (m ((c : Thread nD τ).loc main_arg0)) _ k)
  exact congrArg (fun w : BitVec 32 => w.toInt.toNat) hp

/-- Row `e` of the second taken table is the second table's row at edge `e`'s destination. -/
theorem tabQ_at (c : Dev nD) (hidx : ∀ s e, 0 ≤ (E m c s e).toInt ∧ (E m c s e).toInt < 100000) (e : Fin 1000000)
    (k : Fin 128) :
    (V m c main_v16 : S1003520x128.Idx → EReal) (ix2 (⟨e.val, by omega⟩ : Fin 1003520) k)
      = tabQ (X m c) (node (E m c) hidx 1 e) k := by
  have hr := padRow_range (m ((c : Thread nD τ).loc main_arg1)) ![1, 0] Facts₀.slices_S2x1000000_S1x1000000_1_0 (1 : Fin 2) rfl rfl (hidx 1)
  have hp := padRow_apply_lt (m ((c : Thread nD τ).loc main_arg1)) ![1, 0] Facts₀.slices_S2x1000000_S1x1000000_1_0 (1 : Fin 2) rfl rfl e
  refine (congrFun (v16_eq m c) _).trans ?_
  refine (takeRows_apply _ _ hr (⟨e.val, by omega⟩ : Fin 1003520) k).trans ?_
  refine Eq.trans (congrArg (fun p : Fin 100000 => tableOf (invTab (m ((c : Thread nD τ).loc main_arg0))) (logTab (m ((c : Thread nD τ).loc main_arg0))) (m ((c : Thread nD τ).loc main_arg0)) (m ((c : Thread nD τ).loc main_arg0)) (ix2 p k))
    (Fin.ext ?_ : _ = node (E m c) hidx 1 e)) (tableQ_apply (m ((c : Thread nD τ).loc main_arg0)) _ k)
  exact congrArg (fun w : BitVec 32 => w.toInt.toNat) hp

end Cert.KernelIdeal.TablesAt

end
-- ==== Proof.KernelResult.lean ====
/-
  The kernel program's result is the edge score of the arguments.

  When the launch is reached, row e of the two gathered tables is the per-node table row of the edge's source and target
  node (every index word being in range), the weight window's array is the transposed first weight matrix and the two bias
  windows' arrays the reshaped biases. So the result's entry e, the score of row e of the tables, is the edge score of the
  six arguments: the table rows combine to the relation features as written because no divisor x_j c + eps is zero.
-/
import proofs.«425139_j24481313587800_3_alg».proof.Proof.OutValue
import proofs.«425139_j24481313587800_3_alg».proof.Proof.TablesAt

set_option maxRecDepth 16384

noncomputable section

namespace Cert.KernelIdeal.Result

open Cert.KernelIdeal Cert.KernelIdeal.Gen Cert.KernelIdeal.Launched Cert.KernelIdeal.OutValue Cert.KernelIdeal.TablesAt Cert.EdgeSpec
open Idealize.ShloMosaic Idealize.ShloMosaic.TcCoe Idealize.ShloMosaic.ValueIdx
open Idealize.SL Idealize.SL.Sem

variable (m : (ℓ : Loc nD τ sig) → Buf (Elt Ideal) ℓ)

/-- The first weight matrix, the two biases and the second weight row the program was started with, on core c. -/
abbrev W1 (c : Dev nD) : Fin 64 → Fin 128 → EReal := fun n k => (m ((c : Thread nD τ).loc main_arg2) : S64x128.Idx → EReal) (ix2 n k)
abbrev B1 (c : Dev nD) : Fin 64 → EReal := fun n => (m ((c : Thread nD τ).loc main_arg3) : S64.Idx → EReal) (ix1 n)
abbrev W2 (c : Dev nD) : Fin 64 → EReal := fun n => (m ((c : Thread nD τ).loc main_arg4) : S1x64.Idx → EReal) (ix2 (0 : Fin 1) n)
abbrev B2 (c : Dev nD) : EReal := (m ((c : Thread nD τ).loc main_arg5) : S1.Idx → EReal) (ix1 (0 : Fin 1))

/-- Row e of the column, for an edge e: the edge score of the arguments. -/
theorem row_result (c : Dev nD) (hidx : ∀ s e, 0 ≤ (E m c s e).toInt ∧ (E m c s e).toInt < 100000)
    (hne : ∀ (n : Fin 100000) (k : Fin 32), X m c n k + eps ≠ 0) (e : Fin 1000000) :
    rowScore (V m c main_v15) (V m c main_v16) (V m c main_v17) (V m c main_v18) (V m c main_arg4) (V m c main_v19) (OutValue.padRow e)
      = result (X m c) (node (E m c) hidx 0) (node (E m c) hidx 1) (W1 m c) (B1 m c) (W2 m c) (B2 m c) e := by
  unfold rowScore result
  refine (edge_congr (tabP_at m c hidx e) (tabQ_at m c hidx e) (w1_at m c) (b1_at m c)
    (fun n => congrFun (V_main_arg4 m c) (ix2 (0 : Fin 1) n)) (b2_at m c)).trans ?_
  exact congrArg (fun f => edgeOut f (fun k n => W1 m c n k) (B1 m c) (W2 m c) (B2 m c))
    (funext fun k => relK_tab (X m c) _ _ (hne _) k)

/-- Every weakly fair execution of the kernel program terminates; its result holds the edge scores and its six arguments
    end unchanged. -/
theorem run (ρ : Dev nD → PrngReg)
    (hidx : ∀ (c : Dev nD) s e, 0 ≤ (E m c s e).toInt ∧ (E m c s e).toInt < 100000)
    (hne : ∀ (c : Dev nD) (n : Fin 100000) (k : Fin 32), X m c n k + eps ≠ 0) :
    θ_run defs (onTc (τ := τ) (main (F := Ideal))) ⟨m, fun _ => 0, ρ⟩ (fun r => ∀ c : Dev nD,
      r.2.mem ((c.tc : Thread nD τ).loc main_v22)
        = (fun i : S1000000.Idx => result (X m c) (node (E m c) (hidx c) 0) (node (E m c) (hidx c) 1) (W1 m c) (B1 m c) (W2 m c) (B2 m c) ⟨(i 0).val, (i 0).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h c).2 main_v22 (Pipeline.mem_restRefs_of main_v22 (by decide) (by decide))).trans (funext fun i => by
        obtain ⟨e, rfl⟩ : ∃ e : Fin 1000000, i = ix1 e := ⟨i 0, eq_ix1 i⟩
        exact (tail_at m c e).trans ((G_at m c _).trans (row_result m c (hidx c) (hne c) e))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩) (run_main m ρ)

end Cert.KernelIdeal.Result

end
-- ==== Proof.RefValue.lean ====
/-
  The reference's value at one edge.

  The reference reads the two rows of the index array as a source and a destination node per edge, wraps a negative
  index by the table's height (a step that does nothing to an index already in range), takes the two nodes' rows of
  32 features, forms the four quarters of 128 relation features column by column, and feeds them to a perceptron with
  64 hidden units and one output. Read at edge `e`, under the hypothesis that every index word, read as a signed
  integer, lies in `[0, 100000)`, its result is the specification's `result` of the six argument arrays at `e`.

  The steps, innermost first: the wrapped index is the index itself; the take of rows at `(e, c)` is the table at
  the named node and column `c`; each quarter at `(e, c)` is its formula in the two nodes' features; the four
  quarters joined along the columns, at column `k`, are quarter `k / 32` at column `k mod 32`, which is `relR`; the
  first contraction with the transposed weights plus the bias, clipped below at zero, is `hidden`; the second
  contraction plus its bias is `edgeOut`.
-/
import proofs.«425139_j24481313587800_3_alg».proof.Proof.Gen.ReferenceIdeal.Read
import proofs.«425139_j24481313587800_3_alg».proof.Proof.Spec
import proofs.«425139_j24481313587800_3_alg».proof.Proof.LibGatherRows

noncomputable section

namespace Cert.ReferenceIdeal.RefValue

open Cert.ReferenceIdeal Cert.EdgeSpec Idealize.ShloMosaic Idealize.ShloMosaic.ValueIdx
open Idealize.ShloMosaic.GatherRows

/-! ## The index words -/

/-- A word whose signed reading is not negative does not compare below zero. -/
theorem slt_zero_of_nonneg (v : BitVec 32) (h : 0 ≤ v.toInt) : IntOp.cmpi .slt v 0#32 = 0#1 := by
  have hn : ¬ (v.slt 0#32 = true) := by
    rw [BitVec.slt_iff_toInt_lt]
    have : (0#32 : BitVec 32).toInt = 0 := by decide
    omega
  show BitVec.ofBool (v.slt 0#32) = 0#1
  cases hb : v.slt 0#32
  · rfl
  · exact absurd hb hn

/-- The source index of edge `e` after the wrap of negative indices: row 0 of the index array at `e`, unchanged,
    since it is not negative. -/
theorem wrap_src (x1 : (⟨S2x1000000, .i32⟩ : BufTy).Contents (Elt Ideal))
    (hidx : ∀ (s : Fin 2) (e : Fin 1000000), 0 ≤ (x1 (ix2 s e)).toInt ∧ (x1 (ix2 s e)).toInt < 100000)
    (e : Fin 1000000) :
    Read.val_main_v8 (F := Ideal) x1 (ix1 e) = x1 (ix2 (0 : Fin 2) e) := by
  have h1 : Read.val_main_v1 (F := Ideal) x1 (ix1 e) = x1 (ix2 (0 : Fin 2) e) := by
    rw [Read.val_main_v1_apply, Read.val_main_v0_apply]
    refine congrArg x1 (funext fun a => Fin.ext ?_)
    match a with
    | ⟨0, _⟩ => rfl
    | ⟨1, _⟩ => exact Nat.mod_eq_of_lt e.isLt
  rw [Read.val_main_v8_apply, Read.val_main_v5_apply, h1]
  have h4 : Read.val_main_v4 (F := Ideal) (ix1 e) = 0#32 := by
    rw [Read.val_main_v4_apply]; rfl
  rw [h4, slt_zero_of_nonneg _ (hidx 0 e).1]
  exact select_zero _ _

/-- The destination index of edge `e` after the wrap: row 1 of the index array at `e`, unchanged. -/
theorem wrap_dst (x1 : (⟨S2x1000000, .i32⟩ : BufTy).Contents (Elt Ideal))
    (hidx : ∀ (s : Fin 2) (e : Fin 1000000), 0 ≤ (x1 (ix2 s e)).toInt ∧ (x1 (ix2 s e)).toInt < 100000)
    (e : Fin 1000000) :
    Read.val_main_v15 (F := Ideal) x1 (ix1 e) = x1 (ix2 (1 : Fin 2) e) := by
  have h1 : Read.val_main_v3 (F := Ideal) x1 (ix1 e) = x1 (ix2 (1 : Fin 2) e) := by
    rw [Read.val_main_v3_apply, Read.val_main_v2_apply]
    refine congrArg x1 (funext fun a => Fin.ext ?_)
    match a with
    | ⟨0, _⟩ => rfl
    | ⟨1, _⟩ => exact Nat.mod_eq_of_lt e.isLt
  rw [Read.val_main_v15_apply, Read.val_main_v12_apply, h1]
  have h4 : Read.val_main_v11 (F := Ideal) (ix1 e) = 0#32 := by
    rw [Read.val_main_v11_apply]; rfl
  rw [h4, slt_zero_of_nonneg _ (hidx 1 e).1]
  exact select_zero _ _

/-- An index word in range, clamped into the table's rows, is the node it names: the minimum with the last row
    changes nothing below the height. -/
theorem clamp_node (x1 : (⟨S2x1000000, .i32⟩ : BufTy).Contents (Elt Ideal))
    (hidx : ∀ (s : Fin 2) (e : Fin 1000000), 0 ≤ (x1 (ix2 s e)).toInt ∧ (x1 (ix2 s e)).toInt < 100000)
    (s : Fin 2) (e : Fin 1000000) :
    clampPos 100000 (by decide) (x1 (ix2 s e)) = node (fun s e => x1 (ix2 s e)) hidx s e := by
  refine Fin.ext ?_
  have := hidx s e
  show min (x1 (ix2 s e)).toInt.toNat (100000 - 1) = (x1 (ix2 s e)).toInt.toNat
  omega

/-! ## The two takes of rows -/

/-- The source rows at `(e, c)`: the feature table at the source node of `e` and column `c`. -/
theorem gather_src (x0 : (⟨S100000x32, .f32⟩ : BufTy).Contents (Elt Ideal))
    (x1 : (⟨S2x1000000, .i32⟩ : BufTy).Contents (Elt Ideal))
    (hidx : ∀ (s : Fin 2) (e : Fin 1000000), 0 ≤ (x1 (ix2 s e)).toInt ∧ (x1 (ix2 s e)).toInt < 100000)
    (e : Fin 1000000) (c : Fin 32) :
    Read.val_main_v10 (F := Ideal) x0 x1 (ix2 e c) = x0 (ix2 (node (fun s e => x1 (ix2 s e)) hidx 0 e) c) := by
  unfold Read.val_main_v10
  refine (gather_col_apply (N := 100000) (B := 32) (R := 1000000) (by decide) _ x0 _ (ix2 e c)).trans ?_
  have h9 : Read.val_main_v9 (F := Ideal) x1 (ix2 e (0 : Fin 1)) = x1 (ix2 (0 : Fin 2) e) := by
    rw [Read.val_main_v9_apply]
    have : Read.idx_main_v9 (ix2 e (0 : Fin 1)) = ix1 e := funext fun a => Fin.ext (by match a with | ⟨0, _⟩ => rfl)
    rw [this]
    exact wrap_src x1 hidx e
  show x0 (ix2 (clampPos 100000 _ (Read.val_main_v9 (F := Ideal) x1 (ix2 e (0 : Fin 1)))) c) = _
  rw [h9, clamp_node x1 hidx 0 e]

/-- The destination rows at `(e, c)`: the feature table at the destination node of `e` and column `c`. -/
theorem gather_dst (x0 : (⟨S100000x32, .f32⟩ : BufTy).Contents (Elt Ideal))
    (x1 : (⟨S2x1000000, .i32⟩ : BufTy).Contents (Elt Ideal))
    (hidx : ∀ (s : Fin 2) (e : Fin 1000000), 0 ≤ (x1 (ix2 s e)).toInt ∧ (x1 (ix2 s e)).toInt < 100000)
    (e : Fin 1000000) (c : Fin 32) :
    Read.val_main_v17 (F := Ideal) x0 x1 (ix2 e c) = x0 (ix2 (node (fun s e => x1 (ix2 s e)) hidx 1 e) c) := by
  unfold Read.val_main_v17
  refine (gather_col_apply (N := 100000) (B := 32) (R := 1000000) (by decide) _ x0 _ (ix2 e c)).trans ?_
  have h9 : Read.val_main_v16 (F := Ideal) x1 (ix2 e (0 : Fin 1)) = x1 (ix2 (1 : Fin 2) e) := by
    rw [Read.val_main_v16_apply]
    have : Read.idx_main_v16 (ix2 e (0 : Fin 1)) = ix1 e := funext fun a => Fin.ext (by match a with | ⟨0, _⟩ => rfl)
    rw [this]
    exact wrap_dst x1 hidx e
  show x0 (ix2 (clampPos 100000 _ (Read.val_main_v16 (F := Ideal) x1 (ix2 e (0 : Fin 1)))) c) = _
  rw [h9, clamp_node x1 hidx 1 e]

/-! ## The four quarters of relation features -/

section Features

variable (x0 : (⟨S100000x32, .f32⟩ : BufTy).Contents (Elt Ideal))
  (x1 : (⟨S2x1000000, .i32⟩ : BufTy).Contents (Elt Ideal))
  (hidx : ∀ (s : Fin 2) (e : Fin 1000000), 0 ≤ (x1 (ix2 s e)).toInt ∧ (x1 (ix2 s e)).toInt < 100000)
  (e : Fin 1000000)

/-- The features of the source node of edge `e`. -/
abbrev xi : Fin 32 → EReal := fun c => x0 (ix2 (node (fun s e => x1 (ix2 s e)) hidx 0 e) c)
/-- The features of the destination node of edge `e`. -/
abbrev xj : Fin 32 → EReal := fun c => x0 (ix2 (node (fun s e => x1 (ix2 s e)) hidx 1 e) c)

/-- The first quarter at `(e, c)`: the quotient `x_i c / (x_j c + eps)`. -/
theorem q0_at (c : Fin 32) :
    Read.val_main_v20 (F := Ideal) x0 x1 (ix2 e c) = Ideal.div (xi x0 x1 hidx e c) (xj x0 x1 hidx e c + eps) := by
  rw [Read.val_main_v20_apply, Read.val_main_v19_apply, Read.val_main_v18_apply, Read.val_main_cst_apply,
    gather_src x0 x1 hidx, gather_dst x0 x1 hidx]
  rfl

/-- The second quarter at `(e, c)`: the difference of logarithms `log (x_i c + eps) - log (x_j c + eps)`. -/
theorem q1_at (c : Fin 32) :
    Read.val_main_v27 (F := Ideal) x0 x1 (ix2 e c)
      = Ideal.log (xi x0 x1 hidx e c + eps) - Ideal.log (xj x0 x1 hidx e c + eps) := by
  rw [Read.val_main_v27_apply, Read.val_main_v23_apply, Read.val_main_v26_apply, Read.val_main_v22_apply,
    Read.val_main_v25_apply, Read.val_main_v21_apply, Read.val_main_v24_apply, Read.val_main_cst_3_apply,
    Read.val_main_cst_4_apply, gather_src x0 x1 hidx, gather_dst x0 x1 hidx]
  rfl

/-- The third quarter at `(e, c)`: the absolute difference `|x_i c - x_j c|`. -/
theorem q2_at (c : Fin 32) :
    Read.val_main_v29 (F := Ideal) x0 x1 (ix2 e c) = abs' (xi x0 x1 hidx e c - xj x0 x1 hidx e c) := by
  rw [Read.val_main_v29_apply, Read.val_main_v28_apply, gather_src x0 x1 hidx, gather_dst x0 x1 hidx]
  rfl

/-- The fourth quarter at `(e, c)`: the absolute difference over `max (x_i c) (x_j c) + eps`. -/
theorem q3_at (c : Fin 32) :
    Read.val_main_v33 (F := Ideal) x0 x1 (ix2 e c)
      = Ideal.div (abs' (xi x0 x1 hidx e c - xj x0 x1 hidx e c))
          (max (xi x0 x1 hidx e c) (xj x0 x1 hidx e c) + eps) := by
  rw [Read.val_main_v33_apply, q2_at x0 x1 hidx e c, Read.val_main_v32_apply, Read.val_main_v30_apply,
    Read.val_main_v31_apply, Read.val_main_cst_5_apply, gather_src x0 x1 hidx, gather_dst x0 x1 hidx]
  rfl

end Features

/-! ## The quarters joined along the columns -/

section Concat

/-- Off the joined axis a quarter's index has the row of the whole array's index. -/
theorem piece_row (e : Fin 1000000) (k : Fin 128) (b : Fin S1000000x32.rank)
    (hb : b.cast (rfl : S1000000x32.rank = S1000000x128.rank) ≠ (1 : Fin S1000000x128.rank)) :
    ((ix2 e (col k) : S1000000x32.Idx) b).val
      = ((ix2 e k : S1000000x128.Idx) (b.cast (rfl : S1000000x32.rank = S1000000x128.rank))).val := by
  match b with
  | ⟨0, _⟩ => rfl
  | ⟨1, _⟩ => exact absurd rfl hb

/-- Four arrays of 32 columns joined along the columns, read at column `k` of row `e`: the quarter `k` lies in
    (the columns before it number 0, 32, 64, 96), at its column `k mod 32`. -/
theorem concat4_at {α : Type} (f0 f1 f2 f3 : S1000000x32.Idx → α)
    (h : Shape.Concatenates [S1000000x32, S1000000x32, S1000000x32, S1000000x32] S1000000x128 1)
    (e : Fin 1000000) (k : Fin 128) :
    concatenate S1000000x128 1 [⟨S1000000x32, f0⟩, ⟨S1000000x32, f1⟩, ⟨S1000000x32, f2⟩, ⟨S1000000x32, f3⟩] h (ix2 e k)
      = if k.val < 32 then f0 (ix2 e (col k))
        else if k.val < 64 then f1 (ix2 e (col k))
        else if k.val < 96 then f2 (ix2 e (col k))
        else f3 (ix2 e (col k)) := by
  have hk := k.isLt
  by_cases h1 : k.val < 32
  · rw [if_pos h1]
    exact concatenate_apply_piece (1 : Fin S1000000x128.rank)
      [⟨S1000000x32, f0⟩, ⟨S1000000x32, f1⟩, ⟨S1000000x32, f2⟩, ⟨S1000000x32, f3⟩] h (ix2 e k) 0
      (show (0 : Nat) < 4 by decide) S1000000x32 f0 rfl rfl 0 rfl (ix2 e (col k)) (piece_row e k)
      (show 0 + k.val % 32 = k.val by omega)
  · rw [if_neg h1]
    by_cases h2 : k.val < 64
    · rw [if_pos h2]
      exact concatenate_apply_piece (1 : Fin S1000000x128.rank)
        [⟨S1000000x32, f0⟩, ⟨S1000000x32, f1⟩, ⟨S1000000x32, f2⟩, ⟨S1000000x32, f3⟩] h (ix2 e k) 1
        (show (1 : Nat) < 4 by decide) S1000000x32 f1 rfl rfl 32 rfl (ix2 e (col k)) (piece_row e k)
        (show 32 + k.val % 32 = k.val by omega)
    · rw [if_neg h2]
      by_cases h3 : k.val < 96
      · rw [if_pos h3]
        exact concatenate_apply_piece (1 : Fin S1000000x128.rank)
          [⟨S1000000x32, f0⟩, ⟨S1000000x32, f1⟩, ⟨S1000000x32, f2⟩, ⟨S1000000x32, f3⟩] h (ix2 e k) 2
          (show (2 : Nat) < 4 by decide) S1000000x32 f2 rfl rfl 64 rfl (ix2 e (col k)) (piece_row e k)
          (show 64 + k.val % 32 = k.val by omega)
      · rw [if_neg h3]
        exact concatenate_apply_piece (1 : Fin S1000000x128.rank)
          [⟨S1000000x32, f0⟩, ⟨S1000000x32, f1⟩, ⟨S1000000x32, f2⟩, ⟨S1000000x32, f3⟩] h (ix2 e k) 3
          (show (3 : Nat) < 4 by decide) S1000000x32 f3 rfl rfl 96 rfl (ix2 e (col k)) (piece_row e k)
          (show 96 + k.val % 32 = k.val by omega)

variable (x0 : (⟨S100000x32, .f32⟩ : BufTy).Contents (Elt Ideal))
  (x1 : (⟨S2x1000000, .i32⟩ : BufTy).Contents (Elt Ideal))
  (hidx : ∀ (s : Fin 2) (e : Fin 1000000), 0 ≤ (x1 (ix2 s e)).toInt ∧ (x1 (ix2 s e)).toInt < 100000)
  (e : Fin 1000000)

/-- The 128 relation features of edge `e` at column `k`: the specification's `relR` of the two nodes' features. -/
theorem feat_at (k : Fin 128) :
    Read.val_main_v34 (F := Ideal) x0 x1 (ix2 e k) = relR (xi x0 x1 hidx e) (xj x0 x1 hidx e) k := by
  unfold Read.val_main_v34
  rw [concat4_at, q0_at x0 x1 hidx, q1_at x0 x1 hidx, q2_at x0 x1 hidx, q3_at x0 x1 hidx]
  rfl

end Concat

/-! ## The two layers -/

section Layers

variable (x0 : (⟨S100000x32, .f32⟩ : BufTy).Contents (Elt Ideal))
  (x1 : (⟨S2x1000000, .i32⟩ : BufTy).Contents (Elt Ideal))
  (x2 : (⟨S64x128, .f32⟩ : BufTy).Contents (Elt Ideal)) (x3 : (⟨S64, .f32⟩ : BufTy).Contents (Elt Ideal))
  (hidx : ∀ (s : Fin 2) (e : Fin 1000000), 0 ≤ (x1 (ix2 s e)).toInt ∧ (x1 (ix2 s e)).toInt < 100000)
  (e : Fin 1000000)

/-- Hidden unit `n` of edge `e`: the features contracted with row `n` of the first weights (column `n` of their
    transpose), plus the bias, clipped below at zero; the zero word is the extended real zero. -/
theorem hidden_at (n : Fin 64) :
    Read.val_main_v40 (F := Ideal) x0 x1 x2 x3 (ix2 e n)
      = hidden (relR (xi x0 x1 hidx e) (xj x0 x1 hidx e)) (fun k n => x2 (ix2 n k)) (fun n => x3 (ix1 n)) n := by
  rw [Read.val_main_v40_apply, Read.val_main_v39_apply, Read.val_main_v36_apply, Read.val_main_call0_v0_apply,
    Read.val_main_call0_cst_apply, Read.val_main_v38_apply, Read.val_main_v37_apply]
  have hb : Read.idx_main_v37 (Read.idx_main_v38 (ix2 e n)) = ix1 n :=
    funext fun a => Fin.ext (by match a with | ⟨0, _⟩ => rfl)
  have hs : ∀ k : Fin 128,
      Read.val_main_v34 (F := Ideal) x0 x1 (Read.lidx_main_v36 (ix2 e n) k)
          * Read.val_main_v35 (F := Ideal) x2 (Read.ridx_main_v36 (ix2 e n) k)
        = relR (xi x0 x1 hidx e) (xj x0 x1 hidx e) k * x2 (ix2 n k) := by
    intro k
    have hl : Read.lidx_main_v36 (ix2 e n) k = ix2 e k :=
      funext fun a => Fin.ext (by match a with | ⟨0, _⟩ => rfl | ⟨1, _⟩ => rfl)
    have hr : Read.idx_main_v35 (Read.ridx_main_v36 (ix2 e n) k) = ix2 n k :=
      funext fun a => Fin.ext (by match a with | ⟨0, _⟩ => rfl | ⟨1, _⟩ => rfl)
    rw [hl, feat_at x0 x1 hidx e k, Read.val_main_v35_apply, hr]
  rw [hb, Finset.sum_congr rfl fun k _ => hs k]
  show max (_ + x3 (ix1 n)) (Ideal.ofBits .f32 0x00000000#32) = _
  rw [Ideal.ofBits_zero_f32]
  rfl

end Layers

/-- THE REFERENCE AT EDGE `e`: the specification's score of the six argument arrays, the hidden units contracted
    with the second weights plus the second bias. -/
theorem ref_at (x0 : (⟨S100000x32, .f32⟩ : BufTy).Contents (Elt Ideal)) (x1 : (⟨S2x1000000, .i32⟩ : BufTy).Contents (Elt Ideal))
    (x2 : (⟨S64x128, .f32⟩ : BufTy).Contents (Elt Ideal)) (x3 : (⟨S64, .f32⟩ : BufTy).Contents (Elt Ideal))
    (x4 : (⟨S1x64, .f32⟩ : BufTy).Contents (Elt Ideal)) (x5 : (⟨S1, .f32⟩ : BufTy).Contents (Elt Ideal))
    (hidx : ∀ (s : Fin 2) (e : Fin 1000000), 0 ≤ (x1 (ix2 s e)).toInt ∧ (x1 (ix2 s e)).toInt < 100000) (e : Fin 1000000) :
    Read.val_main_v46 (F := Ideal) x0 x1 x2 x3 x4 x5 (ix1 e)
      = result (fun n k => x0 (ix2 n k)) (node (fun s e => x1 (ix2 s e)) hidx 0) (node (fun s e => x1 (ix2 s e)) hidx 1)
          (fun n k => x2 (ix2 n k)) (fun n => x3 (ix1 n)) (fun n => x4 (ix2 (0 : Fin 1) n)) (x5 (ix1 (0 : Fin 1))) e := by
  rw [Read.val_main_v46_apply]
  have h46 : Read.idx_main_v46 (ix1 e) = ix2 e (0 : Fin 1) :=
    funext fun a => Fin.ext (by match a with | ⟨0, _⟩ => exact Nat.div_one _ | ⟨1, _⟩ => rfl)
  rw [h46, Read.val_main_v45_apply, Read.val_main_v42_apply, Read.val_main_v44_apply, Read.val_main_v43_apply]
  have hb : Read.idx_main_v43 (Read.idx_main_v44 (ix2 e (0 : Fin 1))) = ix1 (0 : Fin 1) :=
    funext fun a => Fin.ext (by match a with | ⟨0, _⟩ => rfl)
  have hs : ∀ n : Fin 64,
      Read.val_main_v40 (F := Ideal) x0 x1 x2 x3 (Read.lidx_main_v42 (ix2 e (0 : Fin 1)) n)
          * Read.val_main_v41 (F := Ideal) x4 (Read.ridx_main_v42 (ix2 e (0 : Fin 1)) n)
        = hidden (relR (xi x0 x1 hidx e) (xj x0 x1 hidx e)) (fun k n => x2 (ix2 n k)) (fun n => x3 (ix1 n)) n
            * x4 (ix2 (0 : Fin 1) n) := by
    intro n
    have hl : Read.lidx_main_v42 (ix2 e (0 : Fin 1)) n = ix2 e n :=
      funext fun a => Fin.ext (by match a with | ⟨0, _⟩ => rfl | ⟨1, _⟩ => rfl)
    have hr : Read.idx_main_v41 (Read.ridx_main_v42 (ix2 e (0 : Fin 1)) n) = ix2 (0 : Fin 1) n :=
      funext fun a => Fin.ext (by match a with | ⟨0, _⟩ => rfl | ⟨1, _⟩ => rfl)
    rw [hl, hidden_at x0 x1 x2 x3 hidx e n, Read.val_main_v41_apply, hr]
  rw [hb, Finset.sum_congr rfl fun n _ => hs n]
  rfl

end Cert.ReferenceIdeal.RefValue

end
-- ==== Proof.PreFacts.lean ====
/-
  Two facts read out of the precondition on the six arguments.

  The precondition is a conjunction of "for all entries" claims, each folded into one bit by a conjunction over
  every entry of an array, and the bits joined by a chain of conjunctions. That the whole is 1 therefore says that
  each joined bit is 1, and a folded bit that is 1 says its claim at every single entry. The last two claims are:

  * every word of the [2, 1000000] edge list, read as a signed integer, is at least 0 and below 100000: so each
    word names a row of the [100000, 32] feature table;
  * every feature plus the small constant eps is different from 0 (over the extended reals, where the sum is
    exact): so no divisor x + eps vanishes.

  A signed comparison of words is the comparison of their signed values, the words 0 and 100000 have the values
  0 and 100000, and "different" over the extended reals is the negation of equality; the zero word is the real 0.
-/
import proofs.«425139_j24481313587800_3_alg».proof.Pre_finite_inputs
import proofs.«425139_j24481313587800_3_alg».proof.Proof.Gen.Pre_finite_inputs
import proofs.«425139_j24481313587800_3_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

namespace Cert.Pre_finite_inputs.Decode

open Cert.Pre_finite_inputs Cert.EdgeSpec Idealize.ShloMosaic Idealize.ShloMosaic.ValueIdx

/-- The scalar shape has exactly one index. -/
instance subsingleton_scalar_idx : Subsingleton S_.Idx := ⟨fun a b => funext fun d => d.elim0⟩

/-- A bit made from a truth value is 1 exactly when the truth value holds. -/
theorem ofBool_one (b : Bool) : BitVec.ofBool b = 1#1 ↔ b = true := by cases b <;> decide

/-- The two bits at the end of the chain: "every edge word lies in [0, 100000)" and "every feature plus eps is not
    zero", each still folded over its array. The chain joins bits by conjunction, so a chain equal to 1 has every
    joined bit equal to 1; the last conjunction gives the second bit, the one before it the first. -/
theorem last_two (a0 : FVec Ideal S100000x32 .f32) (a1 : IVec S2x1000000 32) (a2 : FVec Ideal S64x128 .f32)
    (a3 : FVec Ideal S64 .f32) (a4 : FVec Ideal S1x64 .f32) (a5 : FVec Ideal S1 .f32)
    (h : fn (F := Ideal) a0 a1 a2 a3 a4 a5 = (fun _ => 1#1)) :
    (∀ i : S2x1000000.Idx,
        IntOp.andi (IntOp.cmpi .sge (a1 i) 0#32) (IntOp.cmpi .slt (a1 i) 100000#32) = 1#1) ∧
      (∀ i : S100000x32.Idx,
        Ideal.cmp .une (a0 i + Ideal.ofBits .f32 0x322BCC77#32) (Ideal.ofBits .f32 0x00000000#32) = 1#1) := by
  have e := congrFun h ix0
  dsimp only [fn, fn_part1, fn_part2] at e
  obtain ⟨e30, e35⟩ := IntOp.andi_eq_one.1 e
  obtain ⟨-, e29⟩ := IntOp.andi_eq_one.1 e30
  exact ⟨fun i => Host.reduce_andi_all _ _ _ _ ix0 e29 i, fun i => Host.reduce_andi_all _ _ _ _ ix0 e35 i⟩

/-- Every word of the edge list, read signed, lies in [0, 100000). -/
theorem idx_in_range (a0 : FVec Ideal S100000x32 .f32) (a1 : IVec S2x1000000 32) (a2 : FVec Ideal S64x128 .f32)
    (a3 : FVec Ideal S64 .f32) (a4 : FVec Ideal S1x64 .f32) (a5 : FVec Ideal S1 .f32)
    (h : fn (F := Ideal) a0 a1 a2 a3 a4 a5 = (fun _ => 1#1)) :
    ∀ (s : Fin 2) (e : Fin 1000000), 0 ≤ (a1 (ix2 s e)).toInt ∧ (a1 (ix2 s e)).toInt < 100000 := by
  intro s e
  obtain ⟨hge, hlt⟩ := IntOp.andi_eq_one.1 ((last_two a0 a1 a2 a3 a4 a5 h).1 (ix2 s e))
  -- the two signed comparisons are comparisons of the signed values, and the two literal words have the values 0 and 100000
  have h0 : (0#32 : BitVec 32).toInt = 0 := by decide
  have hN : (100000#32 : BitVec 32).toInt = 100000 := by decide
  unfold IntOp.cmpi at hge hlt
  rw [ofBool_one] at hge hlt
  simp only [BitVec.sle, BitVec.slt, decide_eq_true_eq, h0, hN] at hge hlt
  exact ⟨hge, hlt⟩

/-- No feature plus eps is zero. -/
theorem divisor_ne_zero (a0 : FVec Ideal S100000x32 .f32) (a1 : IVec S2x1000000 32) (a2 : FVec Ideal S64x128 .f32)
    (a3 : FVec Ideal S64 .f32) (a4 : FVec Ideal S1x64 .f32) (a5 : FVec Ideal S1 .f32)
    (h : fn (F := Ideal) a0 a1 a2 a3 a4 a5 = (fun _ => 1#1)) :
    ∀ (n : Fin 100000) (k : Fin 32), a0 (ix2 n k) + eps ≠ 0 := by
  intro n k
  have hne := (last_two a0 a1 a2 a3 a4 a5 h).2 (ix2 n k)
  -- "different" on the extended reals is the negation of equality, and the zero word is the real 0
  unfold Ideal.cmp at hne
  rw [ofBool_one] at hne
  simp only [decide_eq_true_eq, Ideal.ofBits_zero_f32] at hne
  exact hne

end Cert.Pre_finite_inputs.Decode

end
-- ==== Proof.lean ====
/-
  The certificate: the kernel program, its reading over the extended reals and the plain reference all run to their end
  leaving their arguments unchanged, and the last two compute the same edge scores.

  Under the precondition every index word of the edge list names a node (0 ≤ index < 100000) and no node feature plus eps
  is zero. The reference gathers the two nodes' feature rows and computes, per edge, the four groups of relation features
  and a two-layer perceptron of them. The kernel program gathers rows of two per-node tables instead and combines them
  column by column inside its launch; its first group multiplies by a reciprocal where the reference divides, and the two
  agree because no divisor is zero. Both results are the one function `EdgeSpec.result` of the six arguments. The
  finiteness of the float arguments is not used: sums and products of extended reals are associative and commutative
  whatever their values.
-/
import proofs.«425139_j24481313587800_3_alg».proof.Defs
import proofs.«425139_j24481313587800_3_alg».proof.Proof.Gen.Kernel
import proofs.«425139_j24481313587800_3_alg».proof.Proof.Gen.KernelIdeal
import proofs.«425139_j24481313587800_3_alg».proof.Proof.Gen.ReferenceIdeal
import proofs.«425139_j24481313587800_3_alg».proof.Proof.Gen.Pre_finite_inputs
import proofs.«425139_j24481313587800_3_alg».proof.Proof.Gen.ReferenceIdeal.Run
import proofs.«425139_j24481313587800_3_alg».proof.Proof.KernelLaunched
import proofs.«425139_j24481313587800_3_alg».proof.Proof.KernelIdealLaunched
import proofs.«425139_j24481313587800_3_alg».proof.Proof.KernelResult
import proofs.«425139_j24481313587800_3_alg».proof.Proof.RefValue
import proofs.«425139_j24481313587800_3_alg».proof.Proof.PreFacts
import Idealize.ShloMosaic.Adequacy
import Idealize.ShloMosaic.Init

set_option maxRecDepth 16384

noncomputable section

namespace Cert.Proof

open Idealize.ShloMosaic Idealize.ShloMosaic.ValueIdx Idealize.SL.Sem Cert.EdgeSpec

theorem frame_k : Cert.frame_Kernel := fun m ρ _ => Cert.Kernel.Launched.frame m ρ

theorem frame_ki : Cert.frame_KernelIdeal := fun m ρ _ => Cert.KernelIdeal.Launched.frame m ρ

/-- The reference has no launch: its run is the host operations in order, and its frame that run with the result
    dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the edge scores of the arguments. -/
theorem algebraic : Cert.algebraic_KernelIdeal_ReferenceIdeal := by
  intro m ρ m' ρ' hpre hagree
  have hidx := fun c => Cert.Pre_finite_inputs.Decode.idx_in_range _ _ _ _ _ _ (hpre c)
  have hne := fun c => Cert.Pre_finite_inputs.Decode.divisor_ne_zero _ _ _ _ _ _ (hpre c)
  refine ⟨_, Cert.KernelIdeal.Result.run m ρ hidx hne, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1,
    (hagree c).2.2.2.2.1, (hagree c).2.2.2.2.2]
  funext i
  obtain ⟨e, rfl⟩ : ∃ e : Fin 1000000, i = ix1 e := ⟨i 0, eq_ix1 i⟩
  exact Cert.ReferenceIdeal.RefValue.ref_at _ _ _ _ _ _ (hidx c) e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
